-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1200000 : Shape := ⟨1, ![1200000]⟩
abbrev S95x200 : Shape := ⟨2, ![95, 200]⟩
abbrev S200x64 : Shape := ⟨2, ![200, 64]⟩
abbrev S64 : Shape := ⟨1, ![64]⟩
abbrev S64x64 : Shape := ⟨2, ![64, 64]⟩
abbrev S_ : Shape := ⟨0, ![]⟩

class Facts : Prop where
  bcast_S_S1200000 : S_.BroadcastsInDim S1200000 (![] : Fin 0 → Fin S1200000.rank)
  reducesTo_S1200000_S_d0 : S1200000.ReducesTo [0] S_
  h_S_ : 0 < S_.numel
  bcast_S_S95x200 : S_.BroadcastsInDim S95x200 (![] : Fin 0 → Fin S95x200.rank)
  reducesTo_S95x200_S_d0_1 : S95x200.ReducesTo [0, 1] S_
  bcast_S_S200x64 : S_.BroadcastsInDim S200x64 (![] : Fin 0 → Fin S200x64.rank)
  reducesTo_S200x64_S_d0_1 : S200x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_arg11 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S100000 32 := broadcastInDim S100000 ![] bcast_S_S100000 main_c_14
  let main_v40 : IVec S100000 1 := cmpi .sge main_arg0 main_v39
  let main_c_15 : IVec S_ 32 := constantI S_ 32 95#32
  let main_v41 : IVec S100000 32 := broadcastInDim S100000 ![] bcast_S_S100000 main_c_15
  let main_v42 : IVec S100000 1 := cmpi .slt main_arg0 main_v41
  let main_v43 : IVec S100000 1 := andi main_v40 main_v42
  let main_c_16 : IVec S_ 1 := constantI S_ 1 1#1
  let main_v44 : IVec S_ 1 := (fun x v => Host.reduce IntOp.andi x v reducesTo_S100000_S_d0 h_S_) main_v43 main_c_16
  let main_v45 : IVec S_ 1 := andi main_v38 main_v44
  main_v45

def fn_part1 {F : FTy → Type} [FloatOps F] (main_arg0 : IVec S100000 32) (main_arg8 : FVec F S64x64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg11 main_v33

def fn {F : FTy → Type} [FloatOps F] (main_arg0 : IVec S100000 32) (main_arg1 : IVec S1200000 32) (main_arg2 : IVec S1200000 32) (main_arg3 : FVec F S1200000 .f32) (main_arg4 : IVec S100000 32) (main_arg5 : FVec F S95x200 .f32) (main_arg6 : FVec F S200x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S1200000 .f32 := Host.absf main_arg3
  let main_cst : FVec F S_ .f32 := constant S_ .f32 0x7F800000#32
  let main_v1 : FVec F S1200000 .f32 := broadcastInDim S1200000 ![] bcast_S_S1200000 main_cst
  let main_v2 : IVec S1200000 1 := cmpf .olt main_v0 main_v1
  let main_c : IVec S_ 1 := constantI S_ 1 1#1
  let main_v3 : IVec S_ 1 := (fun x v => Host.reduce IntOp.andi x v reducesTo_S1200000_S_d0 h_S_) main_v2 main_c
  let main_v4 : FVec F S95x200 .f32 := Host.absf main_arg5
  let main_cst_0 : FVec F S_ .f32 := constant S_ .f32 0x7F800000#32
  let main_v5 : FVec F S95x200 .f32 := broadcastInDim S95x200 ![] bcast_S_S95x200 main_cst_0
  let main_v6 : IVec S95x200 1 := cmpf .olt main_v4 main_v5
  let main_c_1 : IVec S_ 1 := constantI S_ 1 1#1
  let main_v7 : IVec S_ 1 := (fun x v => Host.reduce IntOp.andi x v reducesTo_S95x200_S_d0_1 h_S_) main_v6 main_c_1
  let main_v8 : IVec S_ 1 := andi main_v3 main_v7
  let main_v9 : FVec F S200x64 .f32 := Host.absf main_arg6
  let main_cst_2 : FVec F S_ .f32 := constant S_ .f32 0x7F800000#32
  let main_v10 : FVec F S200x64 .f32 := broadcastInDim S200x64 ![] bcast_S_S200x64 main_cst_2
  let main_v11 : IVec S200x64 1 := cmpf .olt main_v9 main_v10
  let main_c_3 : IVec S_ 1 := constantI S_ 1 1#1
  let main_v12 : IVec S_ 1 := (fun x v => Host.reduce IntOp.andi x v reducesTo_S200x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg8 main_arg9 main_arg10 main_arg11 main_v13 main_v16
-- ==== Kernel.lean ====
abbrev S100000 : Shape := ⟨1, ![100000]⟩
abbrev S1200000 : Shape := ⟨1, ![1200000]⟩
abbrev S95x200 : Shape := ⟨2, ![95, 200]⟩
abbrev S200x64 : Shape := ⟨2, ![200, 64]⟩
abbrev S64 : Shape := ⟨1, ![64]⟩
abbrev S64x64 : Shape := ⟨2, ![64, 64]⟩
abbrev S_ : Shape := ⟨0, ![]⟩
abbrev S1200000x1 : Shape := ⟨2, ![1200000, 1]⟩
abbrev S95x64 : Shape := ⟨2, ![95, 64]⟩
abbrev S1x64 : Shape := ⟨2, ![1, 64]⟩
abbrev S100000x1 : Shape := ⟨2, ![100000, 1]⟩
abbrev S100000x64 : Shape := ⟨2, ![100000, 64]⟩
abbrev S5000x1 : Shape := ⟨2, ![5000, 1]⟩
abbrev S5000x64 : Shape := ⟨2, ![5000, 64]⟩
abbrev S5000x95 : Shape := ⟨2, ![5000, 95]⟩
abbrev S1200000x64 : Shape := ⟨2, ![1200000, 64]⟩
abbrev S512x64 : Shape := ⟨2, ![512, 64]⟩
abbrev S5000x512 : Shape := ⟨2, ![5000, 512]⟩
abbrev S512 : Shape := ⟨1, ![512]⟩
abbrev S512x1 : Shape := ⟨2, ![512, 1]⟩

abbrev nBuf : Space → Nat
  | .hbm => 103
  | .vmem => 30
  | .smem => 0
  | _ => 0

abbrev bufTy : (tb : Table) → Fin (tcTables nBuf tb) → BufTy
  | .hbm, ⟨0, _⟩ => ⟨S100000, .i32⟩
  | .hbm, ⟨1, _⟩ => ⟨S1200000, .i32⟩
  | .hbm, ⟨2, _⟩ => ⟨S1200000, .i32⟩
  | .hbm, ⟨3, _⟩ => ⟨S1200000, .f32⟩
  | .hbm, ⟨4, _⟩ => ⟨S100000, .i32⟩
  | .hbm, ⟨5, _⟩ => ⟨S95x200, .f32⟩
  | .hbm, ⟨6, _⟩ => ⟨S200x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1200000, .f32⟩
  | .hbm, ⟨13, _⟩ => ⟨S1200000, .f32⟩
  | .hbm, ⟨14, _⟩ => ⟨S_, .f32⟩
  | .hbm, ⟨15, _⟩ => ⟨S1200000, .f32⟩
  | .hbm, ⟨16, _⟩ => ⟨S1200000, .f32⟩
  | .hbm, ⟨17, _⟩ => ⟨S1200000, .f32⟩
  | .hbm, ⟨18, _⟩ => ⟨S_, .f32⟩
  | .hbm, ⟨19, _⟩ => ⟨S1200000, .f32⟩
  | .hbm, ⟨20, _⟩ => ⟨S_, .f32⟩
  | .hbm, ⟨21, _⟩ => ⟨S100000, .f32⟩
  | .hbm, ⟨22, _⟩ => ⟨S1200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S1200000x1, .i32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S95x64, .f32⟩
  | .hbm, ⟨43, _⟩ => ⟨S1x64, .f32⟩
  | .hbm, ⟨44, _⟩ => ⟨S95x64, .f32⟩
  | .hbm, ⟨45, _⟩ => ⟨S95x64, .f32⟩
  | .hbm, ⟨46, _⟩ => ⟨S100000x1, .i32⟩
  | .hbm, ⟨47, _⟩ => ⟨S100000x1, .f32⟩
  | .hbm, ⟨48, _⟩ => ⟨S100000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S1200000x1, .f32⟩
  | .hbm, ⟨59, _⟩ => ⟨S1200000x64, .f32⟩
  | .hbm, ⟨60, _⟩ => ⟨S1200000x64, .f32⟩
  | .hbm, ⟨61, _⟩ => ⟨S_, .f32⟩
  | .hbm, ⟨62, _⟩ => ⟨S100000x64, .f32⟩
  | .hbm, ⟨63, _⟩ => ⟨S1200000x1, .i32⟩
  | .hbm, ⟨64, _⟩ => ⟨S100000x64, .f32⟩
  | .hbm, ⟨65, _⟩ => ⟨S100000x1, .f32⟩
  | .hbm, ⟨66, _⟩ => ⟨S1x64, .f32⟩
  | .hbm, ⟨67, _⟩ => ⟨S100000x1, .f32⟩
  | .hbm, ⟨68, _⟩ => ⟨S100000x64, .f32⟩
  | .hbm, ⟨69, _⟩ => ⟨S_, .i32⟩
  | .hbm, ⟨70, _⟩ => ⟨S1200000, .i32⟩
  | .hbm, ⟨71, _⟩ => ⟨S1200000, .i1⟩
  | .hbm, ⟨72, _⟩ => ⟨S_, .i32⟩
  | .hbm, ⟨73, _⟩ => ⟨S1200000, .i32⟩
  | .hbm, ⟨74, _⟩ => ⟨S1200000, .i32⟩
  | .hbm, ⟨75, _⟩ => ⟨S1200000, .i32⟩
  | .hbm, ⟨76, _⟩ => ⟨S1200000x1, .i32⟩
  | .hbm, ⟨77, _⟩ => ⟨S1200000x64, .f32⟩
  | .hbm, ⟨78, _⟩ => ⟨S1200000x1, .f32⟩
  | .hbm, ⟨79, _⟩ => ⟨S1200000x64, .f32⟩
  | .hbm, ⟨80, _⟩ => ⟨S1200000x64, .f32⟩
  | .hbm, ⟨81, _⟩ => ⟨S_, .f32⟩
  | .hbm, ⟨82, _⟩ => ⟨S100000x64, .f32⟩
  | .hbm, ⟨83, _⟩ => ⟨S1200000x1, .i32⟩
  | .hbm, ⟨84, _⟩ => ⟨S100000x64, .f32⟩
  | .hbm, ⟨85, _⟩ => ⟨S100000x1, .f32⟩
  | .hbm, ⟨86, _⟩ => ⟨S1x64, .f32⟩
  | .hbm, ⟨87, _⟩ => ⟨S100000x64, .f32⟩
  | .hbm, ⟨88, _⟩ => ⟨S100000x1, .i32⟩
  | .hbm, ⟨89, _⟩ => ⟨S512x64, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S512, .f32⟩
  | .hbm, ⟨94, _⟩ => ⟨S100000x1, .i32⟩
  | .hbm, ⟨95, _⟩ => ⟨S512, .f32⟩
  | .hbm, ⟨96, _⟩ => ⟨S_, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S512x1, .f32⟩
  | .hbm, ⟨101, _⟩ => ⟨S512x64, .f32⟩
  | .hbm, ⟨102, _⟩ => ⟨S512x64, .f32⟩
  | .local _ .vmem, ⟨0, _⟩ => ⟨S5000x1, .i32⟩
  | .local _ .vmem, ⟨1, _⟩ => ⟨S5000x1, .i32⟩
  | .local _ .vmem, ⟨2, _⟩ => ⟨S95x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S5000x1, .f32⟩
  | .local _ .vmem, ⟨11, _⟩ => ⟨S5000x1, .f32⟩
  | .local _ .vmem, ⟨12, _⟩ => ⟨S1x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S5000x1, .f32⟩
  | .local _ .vmem, ⟨21, _⟩ => ⟨S5000x1, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .i32⟩
  | .local _ .vmem, ⟨28, _⟩ => ⟨S5000x1, .i32⟩
  | .local _ .vmem, ⟨29, _⟩ => ⟨S512x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v15 : Ref sig .tc := ⟨.hbm, 38, rfl⟩
abbrev main_cst_6 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_v25 : Ref sig .tc := ⟨.hbm, 50, rfl⟩
abbrev main_v26 : Ref sig .tc := ⟨.hbm, 51, rfl⟩
abbrev main_c_7 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S95x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S64_S1x64_1 : S64.BroadcastsInDim S1x64 (![1] : Fin 1 → Fin S1x64.rank)
  bcast_S1x64_S95x64_0_1 : S1x64.BroadcastsInDim S95x64 (![0, 1] : Fin 2 → Fin S95x64.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x95_d1_w32 : S5000x95.Iotas .tc 32 [1]
  broadcasts_S5000x1_S5000x95 : S5000x1.Broadcasts S5000x95
  natLt_1_32 : 1 < 32
  inb_S95x64_S95x64_0_0 : ∀ a, (![0, 0] : Fin 2 → Nat) a + S95x64.size a ≤ S95x64.size a
  h_S95x64 : 0 < S95x64.numel
  shapeCasts_S95x64_S95x64 : S95x64.ShapeCasts S95x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S512x64_S512x64_0_0 : ∀ a, (![0, 0] : Fin 2 → Nat) a + S512x64.size a ≤ S512x64.size a
  h_S512x64 : 0 < S512x64.numel
  iota_S5000x512_d1_w32 : S5000x512.Iotas .tc 32 [1]
  broadcasts_S5000x1_S5000x512 : S5000x1.Broadcasts S5000x512
  shapeCasts_S512x64_S512x64 : S512x64.ShapeCasts S512x64
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S100000_S1200000x1_S1200000_n_0_0_1_wf : ScatterDims.WF S100000 S1200000x1 S1200000 [] [0] [0] 1
  dot_S95x200_S200x64_S95x64_1_0_0_1_n_n_wf : DotDims.WF S95x200 S200x64 S95x64 [1] [0] [0] [1] [] []
  dot_S5000x95_S95x64_S5000x64_1_0_0_1_n_n_wf : DotDims.WF S5000x95 S95x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x512_S5000x64_S512x64_0_0_1_1_n_n_wf : DotDims.WF S5000x512 S5000x64 S512x64 [0] [0] [1] [1] [] []
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .i32 = 32 ∨ (Rect.block (s := S100000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S95x64.size a ≤ S95x64.size a
  hwx0_1 : ∀ i : grid0.Coords, EltTy.bits .f32 = 32 ∨ (Rect.block (s := S95x64) S95x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x64.size a ≤ S512x64.size a
  hwx3_2 : ∀ i : grid3.Coords, EltTy.bits .f32 = 32 ∨ (Rect.block (s := S512x64) S512x64.size (cc3_transform_2 i) (hinb3_2 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S95x200_S200x64_S95x64_1_0_0_1_n_n : DotDims S95x200 S200x64 S95x64 where
  lhsContracting := [1]
  rhsContracting := [0]
  lhsNonContracting := [0]
  rhsNonContracting := [1]
  lhsBatch := []
  rhsBatch := []
  wf := dot_S95x200_S200x64_S95x64_1_0_0_1_n_n_wf
def dot_S5000x95_S95x64_S5000x64_1_0_0_1_n_n : DotDims S5000x95 S95x64 S5000x64 where
  lhsContracting := [1]
  rhsContracting := [0]
  lhsNonContracting := [0]
  rhsNonContracting := [1]
  lhsBatch := []
  rhsBatch := []
  wf := dot_S5000x95_S95x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_v22) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S95x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S512x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000 : Shape := ⟨1, ![100000]⟩
abbrev S1200000 : Shape := ⟨1, ![1200000]⟩
abbrev S95x200 : Shape := ⟨2, ![95, 200]⟩
abbrev S200x64 : Shape := ⟨2, ![200, 64]⟩
abbrev S64 : Shape := ⟨1, ![64]⟩
abbrev S64x64 : Shape := ⟨2, ![64, 64]⟩
abbrev S_ : Shape := ⟨0, ![]⟩
abbrev S100000x1 : Shape := ⟨2, ![100000, 1]⟩
abbrev S100000x200 : Shape := ⟨2, ![100000, 200]⟩
abbrev S100000x64 : Shape := ⟨2, ![100000, 64]⟩
abbrev S1x64 : Shape := ⟨2, ![1, 64]⟩
abbrev S1200000x1 : Shape := ⟨2, ![1200000, 1]⟩
abbrev S1200000x64 : Shape := ⟨2, ![1200000, 64]⟩
abbrev S512x64 : Shape := ⟨2, ![512, 64]⟩
abbrev S512 : Shape := ⟨1, ![512]⟩
abbrev S512x1 : Shape := ⟨2, ![512, 1]⟩

abbrev nBuf : Space → Nat
  | .hbm => 151
  | .vmem => 0
  | .smem => 0
  | _ => 0

abbrev hbmTy0_0 (i : Nat) : BufTy := match i % 128 with
  | 0 => ⟨S100000, .i32⟩
  | 1 => ⟨S1200000, .i32⟩
  | 2 => ⟨S1200000, .i32⟩
  | 3 => ⟨S1200000, .f32⟩
  | 4 => ⟨S100000, .i32⟩
  | 5 => ⟨S95x200, .f32⟩
  | 6 => ⟨S200x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S1200000, .f32⟩
  | 13 => ⟨S1200000, .f32⟩
  | 14 => ⟨S_, .f32⟩
  | 15 => ⟨S1200000, .f32⟩
  | 16 => ⟨S1200000, .f32⟩
  | 17 => ⟨S1200000, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x200, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S1200000, .f32⟩
  | 33 => ⟨S_, .f32⟩
  | 34 => ⟨S100000, .f32⟩
  | 35 => ⟨S1200000x1, .i32⟩
  | 36 => ⟨S100000, .f32⟩
  | 37 => ⟨S_, .f32⟩
  | 38 => ⟨S100000, .f32⟩
  | 39 => ⟨S1200000x1, .i32⟩
  | 40 => ⟨S100000, .f32⟩
  | 41 => ⟨S_, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x64, .f32⟩
  | 57 => ⟨S100000x64, .f32⟩
  | 58 => ⟨S_, .i32⟩
  | 59 => ⟨S1200000, .i32⟩
  | 60 => ⟨S1200000, .i1⟩
  | 61 => ⟨S_, .i32⟩
  | 62 => ⟨S1200000, .i32⟩
  | 63 => ⟨S1200000, .i32⟩
  | 64 => ⟨S1200000, .i32⟩
  | 65 => ⟨S1200000x1, .i32⟩
  | 66 => ⟨S1200000x64, .f32⟩
  | 67 => ⟨S1200000x1, .f32⟩
  | 68 => ⟨S1200000x64, .f32⟩
  | 69 => ⟨S1200000x64, .f32⟩
  | 70 => ⟨S_, .f32⟩
  | 71 => ⟨S100000x64, .f32⟩
  | 72 => ⟨S1200000x1, .i32⟩
  | 73 => ⟨S100000x64, .f32⟩
  | 74 => ⟨S100000x64, .f32⟩
  | 75 => ⟨S100000x1, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S_, .f32⟩
  | 85 => ⟨S1200000, .f32⟩
  | 86 => ⟨S_, .f32⟩
  | 87 => ⟨S100000, .f32⟩
  | 88 => ⟨S1200000x1, .i32⟩
  | 89 => ⟨S100000, .f32⟩
  | 90 => ⟨S_, .f32⟩
  | 91 => ⟨S100000, .f32⟩
  | 92 => ⟨S1200000x1, .i32⟩
  | 93 => ⟨S100000, .f32⟩
  | 94 => ⟨S_, .f32⟩
  | 95 => ⟨S_, .f32⟩
  | 96 => ⟨S100000, .f32⟩
  | 97 => ⟨S100000, .f32⟩
  | 98 => ⟨S_, .f32⟩
  | 99 => ⟨S100000, .f32⟩
  | 100 => ⟨S100000, .f32⟩
  | 101 => ⟨S_, .f32⟩
  | 102 => ⟨S_, .f32⟩
  | 103 => ⟨S100000, .f32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x64, .f32⟩
  | 110 => ⟨S100000x64, .f32⟩
  | 111 => ⟨S_, .i32⟩
  | 112 => ⟨S1200000, .i32⟩
  | 113 => ⟨S1200000, .i1⟩
  | 114 => ⟨S_, .i32⟩
  | 115 => ⟨S1200000, .i32⟩
  | 116 => ⟨S1200000, .i32⟩
  | 117 => ⟨S1200000, .i32⟩
  | 118 => ⟨S1200000x1, .i32⟩
  | 119 => ⟨S1200000x64, .f32⟩
  | 120 => ⟨S1200000x1, .f32⟩
  | 121 => ⟨S1200000x64, .f32⟩
  | 122 => ⟨S1200000x64, .f32⟩
  | 123 => ⟨S_, .f32⟩
  | 124 => ⟨S100000x64, .f32⟩
  | 125 => ⟨S1200000x1, .i32⟩
  | 126 => ⟨S100000x64, .f32⟩
  | 127 => ⟨S100000x64, .f32⟩
  | _ => ⟨S100000, .i32⟩

abbrev hbmTy0_1 (i : Nat) : BufTy := match i % 128 with
  | 0 => ⟨S100000x1, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S512x64, .f32⟩
  | 8 => ⟨S100000x1, .i32⟩
  | 9 => ⟨S512x64, .f32⟩
  | 10 => ⟨S_, .f32⟩
  | 11 => ⟨S100000, .f32⟩
  | 12 => ⟨S_, .f32⟩
  | 13 => ⟨S512, .f32⟩
  | 14 => ⟨S100000x1, .i32⟩
  | 15 => ⟨S512, .f32⟩
  | 16 => ⟨S_, .f32⟩
  | 17 => ⟨S_, .f32⟩
  | 18 => ⟨S512, .f32⟩
  | 19 => ⟨S512, .f32⟩
  | 20 => ⟨S512x1, .f32⟩
  | 21 => ⟨S512x64, .f32⟩
  | 22 => ⟨S512x64, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_c_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_call3_v0 : Ref sig .tc := ⟨.hbm, 95, rfl⟩
abbrev main_call3_v1 : Ref sig .tc := ⟨.hbm, 96, rfl⟩
abbrev main_v60 : Ref sig .tc := ⟨.hbm, 97, rfl⟩
abbrev main_cst_15 : Ref sig .tc := ⟨.hbm, 98, rfl⟩
abbrev main_v61 : Ref sig .tc := ⟨.hbm, 99, rfl⟩
abbrev main_v62 : Ref sig .tc := ⟨.hbm, 100, rfl⟩
abbrev main_cst_16 : Ref sig .tc := ⟨.hbm, 101, rfl⟩
abbrev main_call4_v0 : Ref sig .tc := ⟨.hbm, 102, rfl⟩
abbrev main_call4_v1 : Ref sig .tc := ⟨.hbm, 103, rfl⟩
abbrev main_v63 : Ref sig .tc := ⟨.hbm, 104, rfl⟩
abbrev main_cst_17 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_18 : Ref sig .tc := ⟨.hbm, 111, rfl⟩
abbrev main_v69 : Ref sig .tc := ⟨.hbm, 112, rfl⟩
abbrev main_v70 : Ref sig .tc := ⟨.hbm, 113, rfl⟩
abbrev main_c_19 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_20 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_22 : Ref sig .tc := ⟨.hbm, 138, rfl⟩
abbrev main_v92 : Ref sig .tc := ⟨.hbm, 139, rfl⟩
abbrev main_cst_23 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_24 : Ref sig .tc := ⟨.hbm, 144, rfl⟩
abbrev main_call5_v0 : Ref sig .tc := ⟨.hbm, 145, rfl⟩
abbrev main_call5_v1 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1200000_S1200000x1_0 : S1200000.BroadcastsInDim S1200000x1 (![0] : Fin 1 → Fin S1200000x1.rank)
  bcast_S100000x1_S100000x64_0_1 : S100000x1.BroadcastsInDim S100000x64 (![0, 1] : Fin 2 → Fin S100000x64.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  gather_S95x200_S100000x1_S100000x200_1_0_n_n_0_1_1200_wf : GatherDims.WF S95x200 S100000x1 S100000x200 [1] [0] [] [0] [] 1 ![1, 200]
  dot_S100000x200_S200x64_S100000x64_1_0_0_1_n_n_wf : DotDims.WF S100000x200 S200x64 S100000x64 [1] [0] [0] [1] [] []
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1

variable [Facts₀]

def gather_S95x200_S100000x1_S100000x200_1_0_n_n_0_1_1200 : GatherDims S95x200 S100000x1 S100000x200 where
  offsetDims := [1]
  collapsedSliceDims := [0]
  operandBatchingDims := []
  startIndicesBatchingDims := []
  startIndexMap := [0]
  indexVectorDim := 1
  sliceSizes := ![1, 200]
  wf := gather_S95x200_S100000x1_S100000x200_1_0_n_n_0_1_1200_wf
def dot_S100000x200_S200x64_S100000x64_1_0_0_1_n_n : DotDims S100000x200 S200x64 S100000x64 where
  lhsContracting := [1]
  rhsContracting := [0]
  lhsNonContracting := [0]
  rhsNonContracting := [1]
  lhsBatch := []
  rhsBatch := []
  wf := dot_S100000x200_S200x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.Spec.lean ====
/-
  The arithmetic of the four kernels of this program, as whole-array functions over the extended reals, and the
  laws that join them to the reference's operations.

  * `hot a k`: the weight a one-hot comparison gives category `k` for the label word `a` (compare for equality,
    widen the bit to a word, convert the word to a float): one when the word is `k`, zero otherwise.
  * `embedded`: row `n` of the embedded nodes is the one-hot combination of the table's rows by node `n`'s label,
    scaled by the node's source normalisation.
  * `denseRelu` / `dense`: a row of the aggregated messages times the layer's weight matrix, scaled by the node's
    destination normalisation, plus the bias (then clamped at zero and scaled by the source normalisation, for the
    first layer).
  * `pooled`: graph `g`'s sum is the one-hot combination, over all nodes, of the node rows by graph id, taken
    block by block (twenty blocks of five thousand nodes) in the order the grid visits them.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The shapes of this program, by their extents. -/
abbrev Nodes1 : Shape := ⟨2, ![100000, 1]⟩
abbrev Nodes64 : Shape := ⟨2, ![100000, 64]⟩
abbrev Table : Shape := ⟨2, ![95, 64]⟩
abbrev Weight : Shape := ⟨2, ![64, 64]⟩
abbrev Bias : Shape := ⟨2, ![1, 64]⟩
abbrev Graphs64 : Shape := ⟨2, ![512, 64]⟩

/-- The one-hot weight of category `k` for the label word `a`. -/
def hot (a : BitVec 32) (k : Nat) : EReal :=
  FloatOps.sitofp (F := Ideal) .f32 ((IntOp.cmpi .eq a (BitVec.ofNat 32 k)).setWidth 32)

/-- Node `n`'s embedded row: the table's rows combined by the node's label, times the node's scale. -/
def embedded (lab : IVec Nodes1 32) (tbl : FVec Ideal Table .f32) (sc : FVec Ideal Nodes1 .f32) : FVec Ideal Nodes64 .f32 :=
  fun i => (∑ k : Fin 95, hot (lab (ix2 (i 0) (0 : Fin 1))) k.val * tbl (ix2 k (i 1))) * sc (ix2 (i 0) (0 : Fin 1))

/-- A row of `a` times the weight matrix. -/
def rowTimes (a : FVec Ideal Nodes64 .f32) (w : FVec Ideal Weight .f32) (i : Nodes64.Idx) : EReal :=
  ∑ k : Fin 64, a (ix2 (i 0) k) * w (ix2 k (i 1))

/-- The second layer's dense step: the product row scaled by the destination normalisation, plus the bias. -/
def dense (a : FVec Ideal Nodes64 .f32) (w : FVec Ideal Weight .f32) (sd : FVec Ideal Nodes1 .f32) (b : FVec Ideal Bias .f32) :
    FVec Ideal Nodes64 .f32 :=
  fun i => rowTimes a w i * sd (ix2 (i 0) (0 : Fin 1)) + b (ix2 (0 : Fin 1) (i 1))

/-- The first layer's dense step: the same, clamped below at the zero word's value and scaled by the source normalisation. -/
def denseRelu (a : FVec Ideal Nodes64 .f32) (w : FVec Ideal Weight .f32) (sd : FVec Ideal Nodes1 .f32) (b : FVec Ideal Bias .f32)
    (ss : FVec Ideal Nodes1 .f32) : FVec Ideal Nodes64 .f32 :=
  fun i => max (dense a w sd b i) (Ideal.ofBits .f32 0x00000000#32) * ss (ix2 (i 0) (0 : Fin 1))

/-- Node `5000 t + r`, for block `t` of twenty and row `r` of the block. -/
def nodeOf (t : Fin 20) (r : Fin 5000) : Fin 100000 := ⟨5000 * t.val + r.val, by have := t.isLt; have := r.isLt; omega⟩

/-- What block `t` adds to graph `g`'s sum in feature `f`. -/
def blockSum (x : FVec Ideal Nodes64 .f32) (gid : IVec Nodes1 32) (t : Fin 20) (i : Graphs64.Idx) : EReal :=
  ∑ r : Fin 5000, hot (gid (ix2 (nodeOf t r) (0 : Fin 1))) (i 0).val * x (ix2 (nodeOf t r) (i 1))

/-- The pooled sums: the blocks' contributions over the twenty blocks. -/
def pooled (x : FVec Ideal Nodes64 .f32) (gid : IVec Nodes1 32) : FVec Ideal Graphs64 .f32 :=
  fun i => ∑ t : Fin 20, blockSum x gid t i

end Cert.GcnSpec

end
-- ==== Proof.Laws.lean ====
/-
  The laws that join the kernels' arithmetic to the reference's, over the extended reals.

  * The two literals of the edge weight: the kernel multiplies by the word of 1/64, the reference divides by the
    word of 64; 1/64 is a dyadic, so the two are one function of every extended real.
  * The one-hot weight is an indicator: one on the category's own word, zero on every other word. So a one-hot
    combination of a family over the categories is the member of the label's category (zero times anything is zero
    over the extended reals, the infinities included, so no finiteness is asked of the family).
  * The nodes are twenty blocks of five thousand: a sum over all nodes is the sum over the blocks of the sums over
    each block's rows (addition of extended reals is commutative and associative).
-/
import proofs.«421342_j91139206021791_3_alg».proof.Proof.Spec
import Mathlib.Algebra.BigOperators.Fin
import Mathlib.Logic.Equiv.Fin.Basic

noncomputable section

namespace Cert.GcnSpec

open Idealize.ShloMosaic Idealize.ShloMosaic.ValueIdx

/-- The word `0x42800000` denotes 64. -/
theorem ofBits_64 : Ideal.ofBits .f32 0x42800000#32 = ((64 : ℝ) : EReal) := by
  simp [Ideal.ofBits, Ideal.ieee, -EReal.coe_mul]; norm_num

/-- The word `0x3C800000` denotes 1/64. -/
theorem ofBits_inv64 : Ideal.ofBits .f32 0x3C800000#32 = ((1 / 64 : ℝ) : EReal) := by
  simp [Ideal.ofBits, Ideal.ieee, -EReal.coe_mul]; norm_num

/-- Multiplying by the word of 1/64 is dividing by the word of 64, on every extended real. -/
theorem mul_inv64 (x : EReal) :
    x * Ideal.ofBits .f32 0x3C800000#32 = Ideal.div x (Ideal.ofBits .f32 0x42800000#32) := by
  rw [ofBits_64, ofBits_inv64, Ideal.div_coe (by norm_num : (64 : ℝ) ≠ 0)]

/-- The one-hot weight is the indicator of the category's word. -/
theorem hot_eq (a : BitVec 32) (k : Nat) : hot a k = if a = BitVec.ofNat 32 k then 1 else 0 := by
  show (((((IntOp.cmpi .eq a (BitVec.ofNat 32 k)).setWidth 32).toInt : ℤ) : ℝ) : EReal) = _
  by_cases h : a = BitVec.ofNat 32 k
  · rw [if_pos h]
    have hc : IntOp.cmpi .eq a (BitVec.ofNat 32 k) = 1#1 := by simp [IntOp.cmpi, h]
    rw [hc, show ((1#1 : BitVec 1).setWidth 32).toInt = 1 from by decide]
    norm_num
  · rw [if_neg h]
    have hb : (a == BitVec.ofNat 32 k) = false := beq_eq_false_iff_ne.mpr h
    have hc : IntOp.cmpi .eq a (BitVec.ofNat 32 k) = 0#1 := by simp [IntOp.cmpi, hb]
    rw [hc, show ((0#1 : BitVec 1).setWidth 32).toInt = 0 from by decide]
    norm_num

/-- Two categories below `2 ^ 32` with the same word are the same category. -/
theorem ofNat_inj_of_lt {j k : Nat} (hj : j < 2 ^ 32) (hk : k < 2 ^ 32) (h : BitVec.ofNat 32 j = BitVec.ofNat 32 k) : j = k := by
  have := congrArg BitVec.toNat h
  rwa [BitVec.toNat_ofNat, BitVec.toNat_ofNat, Nat.mod_eq_of_lt hj, Nat.mod_eq_of_lt hk] at this

/-- A one-hot combination over `n` categories selects the member of the label's category. -/
theorem hot_sum_select {n : Nat} (hn : n ≤ 2 ^ 32) (a : Fin n) (T : Fin n → EReal) :
    ∑ k : Fin n, hot (BitVec.ofNat 32 a.val) k.val * T k = T a := by
  rw [Finset.sum_eq_single a]
  · rw [hot_eq, if_pos rfl, one_mul]
  · intro k _ hk
    rw [hot_eq, if_neg, zero_mul]
    intro h
    exact hk (Fin.ext (ofNat_inj_of_lt (lt_of_lt_of_le a.isLt hn) (lt_of_lt_of_le k.isLt hn) h).symm)
  · intro h; exact absurd (Finset.mem_univ a) h

/-- The one-hot weight times a value is the value on the category's word and zero elsewhere. -/
theorem hot_mul (a : BitVec 32) (k : Nat) (x : EReal) : hot a k * x = if a = BitVec.ofNat 32 k then x else 0 := by
  rw [hot_eq]; split <;> simp

/-- A sum over the nodes is the sum over the twenty blocks of the sums over each block's five thousand rows. -/
theorem sum_nodes (G : Fin 100000 → EReal) :
    ∑ n : Fin 100000, G n = ∑ t : Fin 20, ∑ r : Fin 5000, G (nodeOf t r) := by
  rw [← Fintype.sum_prod_type' (f := fun t r => G (nodeOf t r))]
  rw [← Equiv.sum_comp (finProdFinEquiv (m := 20) (n := 5000)) G]
  refine Finset.sum_congr rfl fun x _ => congrArg G (Fin.ext ?_)
  show x.2.val + 5000 * x.1.val = 5000 * x.1.val + x.2.val
  omega

end Cert.GcnSpec

end
-- ==== Proof.EmbedRegion.lean ====
/-
  The embedding kernel's output array. Each grid point takes a block of five thousand node labels, compares every
  label with the ninety-five categories, multiplies the resulting one-hot rows into the table and scales each row by
  the node's source normalisation; the twenty blocks tile the node axis, so the array after the run is `embedded` of
  the three arrays the kernel reads.
-/
import proofs.«421342_j91139206021791_3_alg».proof.Proof.Gen.KernelIdeal.Frame
import proofs.«421342_j91139206021791_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EmbedRegion

open Cert.KernelIdeal Cert.KernelIdeal.Gen Cert.GcnSpec

variable (V : (c : Dev nD) → (b : Ref sig .tc) → Buf (Elt Ideal) ((c : Thread nD τ).loc b))

/-- The arrays the kernel reads, as the region finds them. -/
abbrev labels (c : Dev nD) : IVec Nodes1 32 := V c main_v22
abbrev table (c : Dev nD) : FVec Ideal Table .f32 := V c main_v21
abbrev scale (c : Dev nD) : FVec Ideal Nodes1 .f32 := V c main_v23

/-! ## The body's value at an index -/

/-- The zero offsets of a whole-block access. -/
theorem hz : (![0, 0] : Fin 2 → Nat) = fun _ => 0 := funext fun a => by fin_cases a <;> rfl

/-- The product's left operand index keeps the output's row … -/
theorem lhs_row (i : S5000x64.Idx) (q : dot_S5000x95_S95x64_S5000x64_1_0_0_1_n_n.contr.Idx) :
    (dot_S5000x95_S95x64_S5000x64_1_0_0_1_n_n.lhsIdx i q 0).val = (i 0).val := by
  unfold DotDims.lhsIdx
  rw [dif_neg (show ¬(0 : Fin S5000x95.rank) ∈ dot_S5000x95_S95x64_S5000x64_1_0_0_1_n_n.lhsBatch by decide), dif_pos (show (0 : Fin S5000x95.rank) ∈ dot_S5000x95_S95x64_S5000x64_1_0_0_1_n_n.lhsNonContracting by decide)]
  rfl
/-- … and runs over the categories on its second axis; -/
theorem lhs_cat (i : S5000x64.Idx) (q : dot_S5000x95_S95x64_S5000x64_1_0_0_1_n_n.contr.Idx) :
    (dot_S5000x95_S95x64_S5000x64_1_0_0_1_n_n.lhsIdx i q 1).val = (q ⟨0, by decide⟩).val :=
  dot_S5000x95_S95x64_S5000x64_1_0_0_1_n_n.lhsIdx_val_of_single rfl i q
/-- the right operand index runs over the categories on its first axis … -/
theorem rhs_cat (i : S5000x64.Idx) (q : dot_S5000x95_S95x64_S5000x64_1_0_0_1_n_n.contr.Idx) :
    (dot_S5000x95_S95x64_S5000x64_1_0_0_1_n_n.rhsIdx i q 0).val = (q ⟨0, by decide⟩).val :=
  dot_S5000x95_S95x64_S5000x64_1_0_0_1_n_n.rhsIdx_val_of_single rfl i q
/-- … and keeps the output's column. -/
theorem rhs_col (i : S5000x64.Idx) (q : dot_S5000x95_S95x64_S5000x64_1_0_0_1_n_n.contr.Idx) :
    (dot_S5000x95_S95x64_S5000x64_1_0_0_1_n_n.rhsIdx i q 1).val = (i 1).val := by
  unfold DotDims.rhsIdx
  rw [dif_neg (show ¬(1 : Fin S95x64.rank) ∈ dot_S5000x95_S95x64_S5000x64_1_0_0_1_n_n.rhsBatch by decide), dif_pos (show (1 : Fin S95x64.rank) ∈ dot_S5000x95_S95x64_S5000x64_1_0_0_1_n_n.rhsNonContracting by decide)]
  rfl

/-- The product into the zero accumulator, at row `p` and column `q`: the sum over the ninety-five categories of the
    left operand's row `p` times the right operand's column `q`. -/
theorem product_apply (a : FVec Ideal S5000x95 .f32) (b : FVec Ideal S95x64 .f32) (p : Fin 5000) (q : Fin 64) :
    matmul dot_S5000x95_S95x64_S5000x64_1_0_0_1_n_n (some .fp32) a b (constant (F := Ideal) S5000x64 .f32 0x00000000#32) (ix2 p q)
      = ∑ k : Fin 95, a (ix2 p k) * b (ix2 k q) := by
  simp only [matmul]
  rw [Ideal.matmul_constant_zero_apply, ← Equiv.sum_comp (contrEquiv1 dot_S5000x95_S95x64_S5000x64_1_0_0_1_n_n 95 rfl rfl).symm]
  refine Finset.sum_congr rfl fun k _ => ?_
  have hk := contrEquiv1_symm_val dot_S5000x95_S95x64_S5000x64_1_0_0_1_n_n 95 rfl rfl k
  have el : dot_S5000x95_S95x64_S5000x64_1_0_0_1_n_n.lhsIdx (ix2 p q) ((contrEquiv1 dot_S5000x95_S95x64_S5000x64_1_0_0_1_n_n 95 rfl rfl).symm k) = ix2 p k := funext fun a => Fin.ext (by
    match a with
    | ⟨0, _⟩ => exact lhs_row _ _
    | ⟨1, _⟩ => exact (lhs_cat _ _).trans hk)
  have er : dot_S5000x95_S95x64_S5000x64_1_0_0_1_n_n.rhsIdx (ix2 p q) ((contrEquiv1 dot_S5000x95_S95x64_S5000x64_1_0_0_1_n_n 95 rfl rfl).symm k) = ix2 k q := funext fun a => Fin.ext (by
    match a with
    | ⟨0, _⟩ => exact (rhs_cat _ _).trans hk
    | ⟨1, _⟩ => exact rhs_col _ _)
  rw [el, er]

/-- A column of five thousand entries spread along a second axis reads, at row `p` and any column, its entry `p`. -/
theorem spread95_apply {α : Type} (x : S5000x1.Idx → α) (p : Fin 5000) (k : Fin 95) :
    broadcastTo S5000x95 x broadcasts_S5000x1_S5000x95 (ix2 p k) = x (ix2 p (0 : Fin 1)) :=
  broadcastTo_apply x _ (ix2 p k) (ix2 p (0 : Fin 1)) fun a => by
    match a with
    | ⟨0, _⟩ => rfl
    | ⟨1, _⟩ => rfl
/-- The same column spread to sixty-four columns. -/
theorem spread64_apply {α : Type} (x : S5000x1.Idx → α) (p : Fin 5000) (q : Fin 64) :
    broadcastTo S5000x64 x broadcasts_S5000x1_S5000x64 (ix2 p q) = x (ix2 p (0 : Fin 1)) :=
  broadcastTo_apply x _ (ix2 p q) (ix2 p (0 : Fin 1)) fun a => by
    match a with
    | ⟨0, _⟩ => rfl
    | ⟨1, _⟩ => rfl

/-- The comparison of the spread labels with the category numbers, widened and converted, is the one-hot weight:
    at row `p` and category `k` it is `hot` of row `p`'s label at `k`. -/
theorem onehot_apply (x : IVec S5000x1 32) (p : Fin 5000) (k : Fin 95) :
    (sitofp .f32 (extui 32 (cmpi .eq (broadcastTo S5000x95 x broadcasts_S5000x1_S5000x95)
        (iota .tc S5000x95 32 [1] iota_S5000x95_d1_w32)) natLt_1_32) : FVec Ideal S5000x95 .f32) (ix2 p k)
      = hot (x (ix2 p (0 : Fin 1))) k.val := by
  rw [sitofp_apply, extui_apply]
  show FloatOps.sitofp .f32 ((IntOp.cmpi .eq (broadcastTo S5000x95 x broadcasts_S5000x1_S5000x95 (ix2 p k))
      (iota .tc S5000x95 32 [1] iota_S5000x95_d1_w32 (ix2 p k))).setWidth 32) = _
  rw [spread95_apply, iota_single_apply]
  rfl

/-- THE BODY'S VALUE at row `p` and column `q` of the block: the one-hot combination of the table's column `q` by row
    `p`'s label, times row `p`'s scale. -/
theorem pay_apply (x0 : Vec Ideal S5000x1 .i32) (x1 : Vec Ideal S95x64 .f32) (x2 : Vec Ideal S5000x1 .f32)
    (p : Fin 5000) (q : Fin 64) :
    k0_pay1 (F := Ideal) x0 x1 x2 (ix2 p q)
      = (∑ k : Fin 95, hot (x0 (ix2 p (0 : Fin 1))) k.val * x1 (ix2 k q)) * x2 (ix2 p (0 : Fin 1)) := by
  unfold k0_pay1
  simp only [shapeCast_self]
  rw [mulf_apply, product_apply, spread64_apply]
  congr 1
  refine Finset.sum_congr rfl fun k _ => ?_
  rw [onehot_apply]

/-! ## The blocks the body reads, as rows of the arrays -/

/-- The printed index maps, decided once over the grid: the labels', the scales' and the output's block at point `t`
    is block `t` of the node axis; the table's block is the whole table. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Row `r` of the labels' block at point `t` is the label of node `5000 t + r`. -/
theorem labels_block (c : Dev nD) (t : Fin cfg0.N) (x : S5000x1.Idx) (k : S100000x1.Idx)
    (hk0 : (k 0).val = 5000 * t.val + (x 0).val) (hk1 : (k 1).val = (x 1).val) :
    (iblk0 V c 0 t : Vec Ideal S5000x1 .i32) x = (labels V c : S100000x1.Idx → BitVec 32) k := by
  obtain ⟨⟨e0, e1⟩, -, -, -⟩ := idx_facts t
  unfold iblk0
  rw [View.read_apply]
  show V c main_v22 _ = V c main_v22 _
  congr 1
  funext a
  apply Fin.ext
  match a with
  | ⟨0, _⟩ => show win0_0.index t 0 * 5000 + 1 * (x 0).val = (k 0).val; rw [e0, hk0]; omega
  | ⟨1, _⟩ => show win0_0.index t 1 * 1 + 1 * (x 1).val = (k 1).val; rw [e1, hk1]; omega

/-- Row `r` of the scales' block at point `t` is the scale of node `5000 t + r`. -/
theorem scale_block (c : Dev nD) (t : Fin cfg0.N) (x : S5000x1.Idx) (k : S100000x1.Idx)
    (hk0 : (k 0).val = 5000 * t.val + (x 0).val) (hk1 : (k 1).val = (x 1).val) :
    (iblk0 V c 2 t : Vec Ideal S5000x1 .f32) x = (scale V c : S100000x1.Idx → EReal) k := by
  obtain ⟨-, -, ⟨e0, e1⟩, -⟩ := idx_facts t
  unfold iblk0
  rw [View.read_apply]
  show V c main_v23 _ = V c main_v23 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- The table's block at every point is the whole table. -/
theorem table_block (c : Dev nD) (t : Fin cfg0.N) (x : S95x64.Idx) :
    (iblk0 V c 1 t : Vec Ideal S95x64 .f32) x = (table V c : S95x64.Idx → EReal) x := by
  obtain ⟨-, ⟨e0, e1⟩, -, -⟩ := idx_facts t
  unfold iblk0
  rw [View.read_apply]
  show V c main_v21 _ = V c main_v21 _
  congr 1
  funext a
  apply Fin.ext
  match a with
  | ⟨0, _⟩ => show win0_1.index t 0 * 95 + 1 * (x 0).val = (x 0).val; rw [e0]; omega
  | ⟨1, _⟩ => show win0_1.index t 1 * 64 + 1 * (x 1).val = (x 1).val; rw [e1]; omega

/-! ## What a point writes back -/

/-- The body's value at (r, q) of a block is the embedded row's entry at an array index `i`, once the block's label and
    scale at row `r` are node `i 0`'s and the block's table column `q` is the table's column `i 1`. -/
theorem point_value (lab : IVec Nodes1 32) (tbl : FVec Ideal Table .f32) (sc : FVec Ideal Nodes1 .f32)
    (x0 : Vec Ideal S5000x1 .i32) (x1 : Vec Ideal S95x64 .f32) (x2 : Vec Ideal S5000x1 .f32)
    (p : Fin 5000) (q : Fin 64) (i : Nodes64.Idx)
    (h0 : x0 (ix2 p (0 : Fin 1)) = lab (ix2 (i 0) (0 : Fin 1)))
    (h1 : ∀ k : Fin 95, x1 (ix2 k q) = tbl (ix2 k (i 1)))
    (h2 : x2 (ix2 p (0 : Fin 1)) = sc (ix2 (i 0) (0 : Fin 1))) :
    k0_pay1 (F := Ideal) x0 x1 x2 (ix2 p q) = embedded lab tbl sc i := by
  rw [pay_apply, h0, h2]
  unfold embedded
  congr 1
  exact Finset.sum_congr rfl fun k _ => by rw [h1]

/-- WHAT POINT `t` WRITES BACK is block `t` of the embedded rows: at row `r` and column `q` of the block the body's
    value is the one-hot combination of the table's column `q` by the label of node `5000 t + r`, times that node's
    scale, and the block's element (r, q) sits in the array at (5000 t + r, q). -/
theorem flushed_eq (c : Dev nD) (t : Fin cfg0.N) :
    (dat0 (F := Ideal) V c).flushed 3 t
      = ((cfg0.win 3).blk t).view.read (Elt Ideal) (embedded (labels V c) (table V c) (scale V c)) := by
  show (cfg0.win 3).cut (grid0.coords t) ((dat0 (F := Ideal) V c).after 3 t) = _
  rw [after0_3]
  unfold out0_3
  rw [View.canon_unit_zero hz]
  simp only [View.ld_unit_zero (S := S5000x1) hz, View.ld_unit_zero (S := S95x64) hz]
  obtain ⟨-, -, -, ⟨e0, e1⟩⟩ := idx_facts t
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = embedded (labels V c) (table V c) (scale V c) (((cfg0.win 3).blk t).view.emb (ix2 p q))
  have hr : ((((cfg0.win 3).blk t).view.emb (ix2 p q)) 0).val = 5000 * t.val + p.val := by
    show win0_3.index t 0 * 5000 + 1 * p.val = _
    rw [e0]; omega
  have hc : ((((cfg0.win 3).blk t).view.emb (ix2 p q)) 1).val = q.val := by
    show win0_3.index t 1 * 64 + 1 * q.val = _
    rw [e1]; omega
  refine point_value _ _ _ _ _ _ p q _ ?_ (fun k => ?_) ?_
  · exact labels_block V c t _ _ hr rfl
  · rw [table_block]
    exact congrArg (table V c) (funext fun a => Fin.ext (by
      match a with
      | ⟨0, _⟩ => rfl
      | ⟨1, _⟩ => exact hc.symm))
  · exact scale_block V c t _ _ hr rfl

/-! ## The blocks tile the node axis -/

/-- An index of the array is in point `t`'s block iff each coordinate is in the block's range on its axis. -/
theorem mem_blk (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v24).slice (win0_3.rect t)).set ↔ _
  rw [View.set_slice_whole, Rect.mem_set_unit]
  exact Iff.rfl

/-- Node `n`'s row lies in the block of point `n / 5000`, and every point writes its block back. -/
theorem cover (i : S100000x64.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  have ht : (i 0).val / 5000 < cfg0.N := by rw [hN]; omega
  obtain ⟨-, -, -, ⟨e0, e1⟩⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e1]
    omega

/-- After the run the output array holds the embedded, scaled rows. -/
theorem final (c : Dev nD) :
    (dat0 (F := Ideal) V c).arrAt 3 cfg0.N
      = (embedded (labels V c) (table V c) (scale V c) : Buf (Elt Ideal) ((c : Thread nD τ).loc main_v24)) := by
  exact (dat0 (F := Ideal) V c).arrAt_eq_of_cover 3 (embedded (labels V c) (table V c) (scale V c))
    (fun t _ => flushed_eq V c t) cover

end Cert.KernelIdeal.EmbedRegion

end
-- ==== Proof.DenseReluRegion.lean ====
/-
  The first layer's dense kernel's output array. Each grid point takes a block of five thousand aggregated rows,
  multiplies it into the 64 by 64 weight matrix, scales each row by the node's destination normalisation, adds the
  bias row, clamps at zero and scales by the source normalisation; the twenty blocks tile the node axis, so the
  array after the run is `denseRelu` of the five arrays the kernel reads.
-/
import proofs.«421342_j91139206021791_3_alg».proof.Proof.Gen.KernelIdeal.Frame
import proofs.«421342_j91139206021791_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.DenseReluRegion

open Cert.KernelIdeal Cert.KernelIdeal.Gen Cert.GcnSpec

variable (V : (c : Dev nD) → (b : Ref sig .tc) → Buf (Elt Ideal) ((c : Thread nD τ).loc b))

/-- The arrays the kernel reads, as the region finds them. -/
abbrev rows (c : Dev nD) : FVec Ideal Nodes64 .f32 := V c main_v37
abbrev weight (c : Dev nD) : FVec Ideal Weight .f32 := V c main_arg8
abbrev dstScale (c : Dev nD) : FVec Ideal Nodes1 .f32 := V c main_v38
abbrev bias (c : Dev nD) : FVec Ideal Bias .f32 := V c main_v39
abbrev srcScale (c : Dev nD) : FVec Ideal Nodes1 .f32 := V c main_v40

/-! ## Small facts about indices -/

/-- The zero offsets of a whole-buffer access, as a constant function. -/
theorem origin : (![0, 0] : Fin 2 → Nat) = fun _ => 0 := funext fun a => by fin_cases a <;> rfl

/-- A column `[a, 1]` spread along `b` lanes reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the weight matrix

The contraction runs over the 64 features: the left operand is read at (row, feature), the right one at
(feature, column). -/

/-- The left operand's row is the output's row. -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contracted feature. -/
theorem lhs_feature (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- The right operand's row is the contracted feature. -/
theorem rhs_feature (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- The right operand's column is the output's column. -/
theorem rhs_column (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product accumulated into the zero block, at row `p` and column `q`: the sum over the 64 features of the row's
    entry times the weight's. -/
theorem product_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun ax => Fin.ext (by
    match ax with
    | ⟨0, _⟩ => exact lhs_row _ _
    | ⟨1, _⟩ => exact (lhs_feature _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun ax => Fin.ext (by
    match ax with
    | ⟨0, _⟩ => exact (rhs_feature _ _).trans hk
    | ⟨1, _⟩ => exact rhs_column _ _)
  rw [el, er]

/-! ## The body's arithmetic at one entry of the block -/

/-- Entry `(p, q)` of what the body stores: row `p` of the block times column `q` of the weight, scaled by the row's
    destination normalisation, plus the bias of column `q`, clamped below at the zero word's value, scaled by the row's
    source normalisation. The two changes of format are the identity on extended reals. -/
theorem body_apply (x0 : Vec Ideal S5000x64 .f32) (x1 : Vec Ideal S64x64 .f32) (x2 : Vec Ideal S5000x1 .f32)
    (x3 : Vec Ideal S1x64 .f32) (x4 : Vec Ideal S5000x1 .f32) (p : Fin 5000) (q : Fin 64) :
    k1_pay1 x0 x1 x2 x3 x4 (ix2 p q)
      = max ((∑ k : Fin 64, x0 (ix2 p k) * x1 (ix2 k q)) * x2 (ix2 p (0 : Fin 1)) + x3 (ix2 (0 : Fin 1) q))
          (Ideal.ofBits .f32 0x00000000#32) * x4 (ix2 p (0 : Fin 1)) := by
  unfold k1_pay1
  simp only [shapeCast_self]
  rw [mulf_apply, maximumf_apply, addf_apply, mulf_apply, broadcast_apply, product_apply,
    broadcastTo_a1_ab_apply x2 _ p q, broadcastTo_1b_ab_apply x3 _ p q, broadcastTo_a1_ab_apply x4 _ p q]
  simp only [truncf_apply]
  rfl

/-- A point's entry of the stored block as an entry of `denseRelu`: when the block's rows are rows `n` of the five arrays
    (the hypotheses, one per array read), entry `(p, q)` of the body's result is entry `(n, q)` of the layer. -/
theorem block_value (x0 : Vec Ideal S5000x64 .f32) (x1 : Vec Ideal S64x64 .f32) (x2 : Vec Ideal S5000x1 .f32)
    (x3 : Vec Ideal S1x64 .f32) (x4 : Vec Ideal S5000x1 .f32)
    (A : FVec Ideal Nodes64 .f32) (W : FVec Ideal Weight .f32) (sd : FVec Ideal Nodes1 .f32) (b : FVec Ideal Bias .f32)
    (ss : FVec Ideal Nodes1 .f32)
    (y : S5000x64.Idx) (i : Nodes64.Idx) (p : Fin 5000) (q : Fin 64) (n : Fin 100000)
    (hy : y = ix2 p q) (hi : i = ix2 n q)
    (h0 : ∀ k : Fin 64, x0 (ix2 p k) = A (ix2 n k))
    (h1 : ∀ k : Fin 64, x1 (ix2 k q) = W (ix2 k q))
    (h2 : x2 (ix2 p (0 : Fin 1)) = sd (ix2 n (0 : Fin 1)))
    (h3 : x3 (ix2 (0 : Fin 1) q) = b (ix2 (0 : Fin 1) q))
    (h4 : x4 (ix2 p (0 : Fin 1)) = ss (ix2 n (0 : Fin 1))) :
    k1_pay1 x0 x1 x2 x3 x4 y = denseRelu A W sd b ss i := by
  subst hy hi
  rw [body_apply, h2, h3, h4, Finset.sum_congr rfl fun k _ => by rw [h0 k, h1 k]]
  rfl

/-! ## The blocks

The grid has twenty points. A blocked window's block at point `t` is rows `5000 t … 5000 t + 4999` of its array; the
weight's and the bias's window is the whole array at every point. -/

/-- The index maps at each of the twenty points: a blocked window's block index is the point along the node axis and
    zero along the other; an unblocked window's is zero on both. -/
theorem index_facts : ∀ t : Fin cfg1.N,
    (win1_0.index t (0 : Fin 2) = t.val ∧ win1_0.index t (1 : Fin 2) = 0)
  ∧ (win1_1.index t (0 : Fin 2) = 0 ∧ win1_1.index t (1 : Fin 2) = 0)
  ∧ (win1_2.index t (0 : Fin 2) = t.val ∧ win1_2.index t (1 : Fin 2) = 0)
  ∧ (win1_3.index t (0 : Fin 2) = 0 ∧ win1_3.index t (1 : Fin 2) = 0)
  ∧ (win1_4.index t (0 : Fin 2) = t.val ∧ win1_4.index t (1 : Fin 2) = 0)
  ∧ (win1_5.index t (0 : Fin 2) = t.val ∧ win1_5.index t (1 : Fin 2) = 0) :=
  (by decide +kernel : ∀ t : Fin grid1.N, _)

/-- Row `p` of the aggregated rows' block at point `t` is row `5000 t + p` of the array. -/
theorem rows_block (c : Dev nD) (t : Fin cfg1.N) (p : Fin 5000) (k : Fin 64) (n : Fin 100000)
    (hn : n.val = 5000 * t.val + p.val) :
    (iblk1 V c 0 t : Vec Ideal S5000x64 .f32) (ix2 p k) = rows V c (ix2 n k) := by
  obtain ⟨⟨e0, e1⟩, -⟩ := index_facts t
  unfold iblk1
  rw [View.read_apply]
  show V c main_v37 _ = V c main_v37 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- The weight's block at any point is the weight matrix. -/
theorem weight_block (c : Dev nD) (t : Fin cfg1.N) (k : Fin 64) (q : Fin 64) :
    (iblk1 V c 1 t : Vec Ideal S64x64 .f32) (ix2 k q) = weight V c (ix2 k q) := by
  obtain ⟨-, ⟨e0, e1⟩, -⟩ := index_facts t
  unfold iblk1
  rw [View.read_apply]
  show V c main_arg8 _ = V c main_arg8 _
  congr 1
  funext a
  apply Fin.ext
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-- Row `p` of the destination normalisation's block at point `t` is row `5000 t + p` of the column. -/
theorem dstScale_block (c : Dev nD) (t : Fin cfg1.N) (p : Fin 5000) (n : Fin 100000)
    (hn : n.val = 5000 * t.val + p.val) :
    (iblk1 V c 2 t : Vec Ideal S5000x1 .f32) (ix2 p (0 : Fin 1)) = dstScale V c (ix2 n (0 : Fin 1)) := by
  obtain ⟨-, -, ⟨e0, e1⟩, -⟩ := index_facts t
  unfold iblk1
  rw [View.read_apply]
  show V c main_v38 _ = V c main_v38 _
  congr 1
  funext a
  apply Fin.ext
  match a with
  | ⟨0, _⟩ => show win1_2.index t (0 : Fin 2) * 5000 + 1 * p.val = n.val; rw [e0, hn]; omega
  | ⟨1, _⟩ => show win1_2.index t (1 : Fin 2) * 1 + 1 * 0 = 0; rw [e1]

/-- The bias's block at any point is the bias row. -/
theorem bias_block (c : Dev nD) (t : Fin cfg1.N) (q : Fin 64) :
    (iblk1 V c 3 t : Vec Ideal S1x64 .f32) (ix2 (0 : Fin 1) q) = bias V c (ix2 (0 : Fin 1) q) := by
  obtain ⟨-, -, -, ⟨e0, e1⟩, -⟩ := index_facts t
  unfold iblk1
  rw [View.read_apply]
  show V c main_v39 _ = V c main_v39 _
  congr 1
  funext a
  apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

/-- Row `p` of the source normalisation's block at point `t` is row `5000 t + p` of the column. -/
theorem srcScale_block (c : Dev nD) (t : Fin cfg1.N) (p : Fin 5000) (n : Fin 100000)
    (hn : n.val = 5000 * t.val + p.val) :
    (iblk1 V c 4 t : Vec Ideal S5000x1 .f32) (ix2 p (0 : Fin 1)) = srcScale V c (ix2 n (0 : Fin 1)) := by
  obtain ⟨-, -, -, -, ⟨e0, e1⟩, -⟩ := index_facts t
  unfold iblk1
  rw [View.read_apply]
  show V c main_v40 _ = V c main_v40 _
  congr 1
  funext a
  apply Fin.ext
  match a with
  | ⟨0, _⟩ => show win1_4.index t (0 : Fin 2) * 5000 + 1 * p.val = n.val; rw [e0, hn]; omega
  | ⟨1, _⟩ => show win1_4.index t (1 : Fin 2) * 1 + 1 * 0 = 0; rw [e1]

/-- The block written back at point `t` is `denseRelu` of the five arrays, read through that point's rectangle: entry
    `(p, q)` of the stored block is entry `(5000 t + p, q)` of the layer, each operand's block being the same rows of its
    array. -/
theorem flushed_eq (c : Dev nD) (t : Fin cfg1.N) :
    (dat1 V c).flushed 5 t = ((cfg1.win 5).blk t).view.read (Elt Ideal)
      (denseRelu (rows V c) (weight V c) (dstScale V c) (bias V c) (srcScale V c)) := by
  show (cfg1.win 5).cut (grid1.coords t) ((dat1 V c).after 5 t) = _
  rw [after1_5]
  unfold out1_5
  rw [View.canon_unit_zero origin]
  simp only [View.ld_unit_zero (S := S5000x64) origin, View.ld_unit_zero (S := S64x64) origin,
    View.ld_unit_zero (S := S5000x1) origin, View.ld_unit_zero (S := S1x64) origin]
  obtain ⟨-, -, -, -, -, e0, e1⟩ := index_facts t
  have ht : t.val < 20 := lt_of_lt_of_eq t.isLt N_1
  funext j
  have hp : (j 0).val < 5000 := (j 0).isLt
  have hq : (j 1).val < 64 := (j 1).isLt
  show k1_pay1 (iblk1 V c 0 t) (iblk1 V c 1 t) (iblk1 V c 2 t) (iblk1 V c 3 t) (iblk1 V c 4 t) j
    = denseRelu (rows V c) (weight V c) (dstScale V c) (bias V c) (srcScale V c) (((cfg1.win 5).blk t).view.emb j)
  refine block_value _ _ _ _ _ _ _ _ _ _ j _ ⟨(j 0).val, hp⟩ ⟨(j 1).val, hq⟩ ⟨5000 * t.val + (j 0).val, by omega⟩ ?_ ?_
    (fun k => rows_block V c t _ k _ rfl) (fun k => weight_block V c t k _)
    (dstScale_block V c t _ _ rfl) (bias_block V c t _) (srcScale_block V c t _ _ rfl)
  · funext a
    match a with
    | ⟨0, _⟩ => rfl
    | ⟨1, _⟩ => rfl
  · funext a
    apply Fin.ext
    match a with
    | ⟨0, _⟩ => show win1_5.index t (0 : Fin 2) * 5000 + 1 * (j 0).val = 5000 * t.val + (j 0).val; rw [e0]; omega
    | ⟨1, _⟩ => show win1_5.index t (1 : Fin 2) * 64 + 1 * (j 1).val = (j 1).val; rw [e1]; omega

/-! ## The twenty blocks tile the node axis -/

/-- An index of the array is in point `t`'s block iff each coordinate is in the block's range on its axis. -/
theorem mem_block (t : Fin cfg1.N) (i : S100000x64.Idx) :
    i ∈ ((cfg1.win 5).blk t).view.set
      ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Every index of the output array lies in the block of the point its row divided by 5000 names, and every point
    writes its block back. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, e0, e1⟩ := index_facts t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    rw [e0]; omega
  | ⟨1, _⟩ =>
    show win1_5.index t (1 : Fin 2) * 64 ≤ (i 1).val ∧ (i 1).val < win1_5.index t (1 : Fin 2) * 64 + 64
    rw [e1]; omega

/-- After the run the output array holds the first layer's rows, already scaled for the next layer. -/
theorem final (c : Dev nD) :
    (dat1 (F := Ideal) V c).arrAt 5 cfg1.N
      = (denseRelu (rows V c) (weight V c) (dstScale V c) (bias V c) (srcScale V c) : Buf (Elt Ideal) ((c : Thread nD τ).loc main_v41)) := by
  exact (dat1 V c).arrAt_eq_of_cover 5 (denseRelu (rows V c) (weight V c) (dstScale V c) (bias V c) (srcScale V c))
    (fun t _ => flushed_eq V c t) cover

end Cert.KernelIdeal.DenseReluRegion

end
-- ==== Proof.DenseRegion.lean ====
/-
  The second layer's dense kernel's output array. Each grid point takes a block of five thousand aggregated rows,
  multiplies it into the 64 by 64 weight matrix, scales each row by the node's destination normalisation and adds the
  bias row; the twenty blocks tile the node axis, so the array after the run is `dense` of the four arrays the
  kernel reads.
-/
import proofs.«421342_j91139206021791_3_alg».proof.Proof.Gen.KernelIdeal.Frame
import proofs.«421342_j91139206021791_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.DenseRegion

open Cert.KernelIdeal Cert.KernelIdeal.Gen Cert.GcnSpec

/-- The zero offsets of a whole-block access. -/
theorem zero_offsets : (![0, 0] : Fin 2 → Nat) = fun _ => 0 := funext fun a => by fin_cases a <;> rfl

/-! ## The product of a block of rows with the weight matrix, entry by entry -/

/-- The left operand of the product is read at the entry's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted feature, -/
theorem lhs_feature (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted feature … -/
theorem rhs_feature (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the entry's column. -/
theorem rhs_column (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the product accumulated from zero is the sum over the 64 features of row p's entry times column
    q's entry. -/
theorem product_entry (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_feature _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_feature _ _).trans hk
    | ⟨1, _⟩ => exact rhs_column _ _)
  rw [el, er]

/-! ## The two broadcasts -/

/-- The column of per-row scales spread over the 64 features: entry (p, q) is row p's scale. -/
theorem scale_entry (x : Vec Ideal S5000x1 .f32) (p : Fin 5000) (q : Fin 64) :
    broadcastTo S5000x64 x broadcasts_S5000x1_S5000x64 (ix2 p q) = x (ix2 p (0 : Fin 1)) := by
  refine broadcastTo_apply x broadcasts_S5000x1_S5000x64 (ix2 p q) (ix2 p (0 : Fin 1)) fun a => ?_
  match a with
  | ⟨0, _⟩ => show p.val = if (5000 : Nat) = 1 then 0 else p.val; rw [if_neg (by decide)]
  | ⟨1, _⟩ => show (0 : Nat) = if (1 : Nat) = 1 then 0 else q.val; rw [if_pos rfl]

/-- The bias row spread over the 5000 rows: entry (p, q) is the bias of feature q. -/
theorem bias_entry (x : Vec Ideal S1x64 .f32) (p : Fin 5000) (q : Fin 64) :
    broadcastTo S5000x64 x broadcasts_S1x64_S5000x64 (ix2 p q) = x (ix2 (0 : Fin 1) q) := by
  refine broadcastTo_apply x broadcasts_S1x64_S5000x64 (ix2 p q) (ix2 (0 : Fin 1) q) fun a => ?_
  match a with
  | ⟨0, _⟩ => show (0 : Nat) = if (1 : Nat) = 1 then 0 else p.val; rw [if_pos rfl]
  | ⟨1, _⟩ => show q.val = if (64 : Nat) = 1 then 0 else q.val; rw [if_neg (by decide)]

/-! ## The body's value at an entry -/

/-- What the body stores at entry (p, q) of its block: the product row's entry, times row p's scale, plus feature
    q's bias. The two narrowings of the operands are the identity on the extended reals. -/
theorem payload_entry (x0 : Vec Ideal S5000x64 .f32) (x1 : Vec Ideal S64x64 .f32) (x2 : Vec Ideal S5000x1 .f32)
    (x3 : Vec Ideal S1x64 .f32) (p : Fin 5000) (q : Fin 64) :
    k2_pay1 x0 x1 x2 x3 (ix2 p q)
      = (∑ k : Fin 64, x0 (ix2 p k) * x1 (ix2 k q)) * x2 (ix2 p (0 : Fin 1)) + x3 (ix2 (0 : Fin 1) q) := by
  unfold k2_pay1
  simp only [shapeCast_self]
  rw [addf_apply, mulf_apply, product_entry, scale_entry, bias_entry]
  simp only [truncf_apply]

variable (V : (c : Dev nD) → (b : Ref sig .tc) → Buf (Elt Ideal) ((c : Thread nD τ).loc b))

/-- The arrays the kernel reads, as the region finds them. -/
abbrev rows (c : Dev nD) : FVec Ideal Nodes64 .f32 := V c main_v54
abbrev weight (c : Dev nD) : FVec Ideal Weight .f32 := V c main_arg10
abbrev dstScale (c : Dev nD) : FVec Ideal Nodes1 .f32 := V c main_v55
abbrev bias (c : Dev nD) : FVec Ideal Bias .f32 := V c main_v56

/-! ## The blocks of a grid point -/

/-- The grid has twenty points. -/
theorem point_lt (t : Fin cfg2.N) : t.val < 20 := lt_of_lt_of_eq t.isLt N_2

/-- Block indices, decided over the grid: the rows, the scales and the output move with the point along the node
    axis; the weight matrix and the bias row stay whole. -/
theorem block_indices : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0) :=
  (by decide +kernel : ∀ t : Fin grid2.N, _)

/-- Node `5000 t + p`: row `p` of point `t`'s block. -/
def node (t : Fin cfg2.N) (p : Fin 5000) : Fin 100000 :=
  ⟨5000 * t.val + p.val, by have := point_lt t; have := p.isLt; omega⟩

/-- Row p of point t's block of aggregated rows is node `5000 t + p`'s row. -/
theorem rows_block (c : Dev nD) (t : Fin cfg2.N) (p : Fin 5000) (k : Fin 64) :
    (iblk2 V c 0 t : Vec Ideal S5000x64 .f32) (ix2 p k) = rows V c (ix2 (node t p) k) := by
  obtain ⟨⟨e0, e1⟩, -⟩ := block_indices t
  show V c main_v54 (((cfg2.win 0).blk t).view.emb (ix2 p k)) = V c main_v54 (ix2 (node t p) k)
  refine congrArg _ (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 64 + 1 * k.val = k.val; rw [e1]; omega

/-- The weight window's block is the whole matrix. -/
theorem weight_block (c : Dev nD) (t : Fin cfg2.N) (k : Fin 64) (q : Fin 64) :
    (iblk2 V c 1 t : Vec Ideal S64x64 .f32) (ix2 k q) = weight V c (ix2 k q) := by
  obtain ⟨-, ⟨e0, e1⟩, -⟩ := block_indices t
  show V c main_arg10 (((cfg2.win 1).blk t).view.emb (ix2 k q)) = V c main_arg10 (ix2 k q)
  refine congrArg _ (funext fun a => Fin.ext ?_)
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- Row p of point t's block of scales is node `5000 t + p`'s scale. -/
theorem scale_block (c : Dev nD) (t : Fin cfg2.N) (p : Fin 5000) :
    (iblk2 V c 2 t : Vec Ideal S5000x1 .f32) (ix2 p (0 : Fin 1)) = dstScale V c (ix2 (node t p) (0 : Fin 1)) := by
  obtain ⟨-, -, ⟨e0, e1⟩, -⟩ := block_indices t
  show V c main_v55 (((cfg2.win 2).blk t).view.emb (ix2 p (0 : Fin 1))) = V c main_v55 (ix2 (node t p) (0 : Fin 1))
  refine congrArg _ (funext fun a => Fin.ext ?_)
  match a with
  | ⟨0, _⟩ => show win2_2.index t (0 : Fin 2) * 5000 + 1 * p.val = 5000 * t.val + p.val; rw [e0]; omega
  | ⟨1, _⟩ => show win2_2.index t (1 : Fin 2) * 1 + 1 * (0 : Fin 1).val = (0 : Fin 1).val; rw [e1]; rfl

/-- The bias window's block is the whole row. -/
theorem bias_block (c : Dev nD) (t : Fin cfg2.N) (q : Fin 64) :
    (iblk2 V c 3 t : Vec Ideal S1x64 .f32) (ix2 (0 : Fin 1) q) = bias V c (ix2 (0 : Fin 1) q) := by
  obtain ⟨-, -, -, ⟨e0, e1⟩, -⟩ := block_indices t
  show V c main_v56 (((cfg2.win 3).blk t).view.emb (ix2 (0 : Fin 1) q)) = V c main_v56 (ix2 (0 : Fin 1) q)
  refine congrArg _ (funext fun a => Fin.ext ?_)
  match a with
  | ⟨0, _⟩ => show win2_3.index t (0 : Fin 2) * 1 + 1 * (0 : Fin 1).val = (0 : Fin 1).val; rw [e0]; rfl
  | ⟨1, _⟩ => show win2_3.index t (1 : Fin 2) * 64 + 1 * q.val = q.val; rw [e1]; omega

/-- Entry (p, q) of the output's block at point t sits at node `5000 t + p`, feature q of the array. -/
theorem out_block (t : Fin cfg2.N) (p : Fin 5000) (q : Fin 64) :
    ((cfg2.win 4).blk t).view.emb (ix2 p q) = (ix2 (node t p) q : Nodes64.Idx) := by
  obtain ⟨-, -, -, -, ⟨e0, e1⟩⟩ := block_indices t
  refine funext fun a => Fin.ext ?_
  match a with
  | ⟨0, _⟩ => show win2_4.index t (0 : Fin 2) * 5000 + 1 * p.val = 5000 * t.val + p.val; rw [e0]; omega
  | ⟨1, _⟩ => show win2_4.index t (1 : Fin 2) * 64 + 1 * q.val = q.val; rw [e1]; omega

/-! ## What a point writes back -/

/-- What point `t` writes back is block `t` of `dense` of the four arrays: entry (p, q) of the body's value is read
    off the blocks at node `5000 t + p`, where the output's block puts it. -/
theorem flushed_eq (c : Dev nD) (t : Fin cfg2.N) :
    (dat2 (F := Ideal) V c).flushed 4 t
      = ((cfg2.win 4).blk t).view.read (Elt Ideal) (dense (rows V c) (weight V c) (dstScale V c) (bias V c)) := by
  show (cfg2.win 4).cut (grid2.coords t) ((dat2 V c).after 4 t) = _
  rw [after2_4]
  unfold out2_4
  rw [View.canon_unit_zero zero_offsets]
  simp only [View.ld_unit_zero (S := S5000x64) zero_offsets, View.ld_unit_zero (S := S64x64) zero_offsets,
    View.ld_unit_zero (S := S5000x1) zero_offsets, View.ld_unit_zero (S := S1x64) zero_offsets]
  have entry : ∀ j : S5000x64.Idx,
      k2_pay1 (iblk2 V c 0 t) (iblk2 V c 1 t) (iblk2 V c 2 t) (iblk2 V c 3 t) j
        = dense (rows V c) (weight V c) (dstScale V c) (bias V c) (((cfg2.win 4).blk t).view.emb j) := by
    intro j
    obtain ⟨p, q, rfl⟩ : ∃ (p : Fin 5000) (q : Fin 64), j = ix2 p q := ⟨j 0, j 1, eq_ix2 j⟩
    rw [payload_entry (iblk2 V c 0 t) (iblk2 V c 1 t) (iblk2 V c 2 t) (iblk2 V c 3 t) p q, out_block t p q,
      scale_block V c t p, bias_block V c t q]
    simp only [rows_block V c t p, weight_block V c t]
    rfl
  funext j
  exact entry j

/-! ## The twenty blocks tile the node axis -/

/-- Every entry of the array lies in the block of the point its node's quotient by 5000 names. -/
theorem cover (i : Nodes64.Idx) :
    ∃ t : Fin cfg2.N, (cfg2.win 4).flush t = true ∧ i ∈ ((cfg2.win 4).blk t).view.set := by
  have h0 : (i 0).val < 100000 := (i 0).isLt
  have h1 : (i 1).val < 64 := (i 1).isLt
  let t : Fin cfg2.N := ⟨(i 0).val / 5000, by rw [show cfg2.N = 20 from N_2]; omega⟩
  obtain ⟨-, -, -, -, ⟨e0, e1⟩⟩ := block_indices t
  have ht : t.val = (i 0).val / 5000 := rfl
  refine ⟨t, flush2_4 t, ?_⟩
  show i ∈ ((View.whole main_v57).slice (win2_4.rect t)).set
  rw [View.set_slice_whole, Rect.mem_set_unit]
  intro a
  match a with
  | ⟨0, _⟩ =>
    show win2_4.index t (0 : Fin 2) * 5000 ≤ (i 0).val ∧ (i 0).val < win2_4.index t (0 : Fin 2) * 5000 + 5000
    rw [e0, ht]; omega
  | ⟨1, _⟩ =>
    show win2_4.index t (1 : Fin 2) * 64 ≤ (i 1).val ∧ (i 1).val < win2_4.index t (1 : Fin 2) * 64 + 64
    rw [e1]; omega

/-- After the run the output array holds the second layer's rows. -/
theorem final (c : Dev nD) :
    (dat2 (F := Ideal) V c).arrAt 4 cfg2.N
      = (dense (rows V c) (weight V c) (dstScale V c) (bias V c) : Buf (Elt Ideal) ((c : Thread nD τ).loc main_v57)) := by
  exact (dat2 (F := Ideal) V c).arrAt_eq_of_cover 4 (dense (rows V c) (weight V c) (dstScale V c) (bias V c))
    (fun t _ => flushed_eq V c t) cover

end Cert.KernelIdeal.DenseRegion

end
-- ==== Proof.PoolRegion.lean ====
/-
  The pooling kernel's output array. The one output block, all 512 graphs by 64 features, stays in place over the
  twenty grid points: the first point clears it, every point adds the product of the transposed one-hot rows of its
  five thousand graph ids with its five thousand node rows, and only the last point writes it back. So the array
  after the run is the sum over the twenty blocks of the blocks' contributions: `pooled`.

  The steps. What a point leaves in the output's buffer is the update `k3_pay2` of its two blocks and of what the buffer
  held (the zero block `k3_pay1` at the first point): `out_A`, `out_B`. At an entry (a, b) the update adds to the old
  entry the sum over the block's rows r of `hot (id r) a * row r b` (`pay2_apply`: the product contracts the row axis of
  both operands, and the one-hot factor compares row r's id with the column number a). Row r of point t's blocks is
  row 5000 t + r of the arrays (`xblk_apply`, `gblk_apply`), so that sum is block t's term of `pooled` (`contrib_eq`).
  By induction on the point the buffer holds the sum of the terms of the blocks so far (`outsAt_eq`); at the last point
  that is all twenty, and the block written back there is the whole array (`flushed_eq`, `cover`).
-/
import proofs.«421342_j91139206021791_3_alg».proof.Proof.Gen.KernelIdeal.Frame
import proofs.«421342_j91139206021791_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PoolRegion

open Cert.KernelIdeal Cert.KernelIdeal.Gen Cert.GcnSpec

variable (V : (c : Dev nD) → (b : Ref sig .tc) → Buf (Elt Ideal) ((c : Thread nD τ).loc b))

/-- The arrays the kernel reads, as the region finds them. -/
abbrev nodeRows (c : Dev nD) : FVec Ideal Nodes64 .f32 := V c main_v57
abbrev graphIds (c : Dev nD) : IVec Nodes1 32 := V c main_v58

/-! ## What a point leaves in the output's buffer -/

section Pieces
variable {F : FTy → Type} [FloatOps F]

/-- The zero offsets of a rank-2 access, as a constant function. -/
theorem hz : (![0, 0] : Fin 2 → Nat) = fun _ => 0 := funext fun a => by fin_cases a <;> rfl

/-- A LATER POINT: the body loads the whole ids block `g`, the whole rows block `x` and the whole buffer `xo`, and its
    one store, which covers the buffer, leaves the update of the three. -/
theorem out_B (c : Dev nD) (i : grid3.Coords) (a1 : Memref sig .tc .vmem S5000x64 .f32) (h1 : a1.IsWhole)
    (a2 : Memref sig .tc .vmem S5000x1 .i32) (h2 : a2.IsWhole) (a3 : Memref sig .tc .vmem S512x64 .f32) (h3 : a3.IsWhole)
    (hc : ¬cond3_0 i) (x : Vec F S5000x64 .f32) (g : Vec F S5000x1 .i32) (xo : Vec F S512x64 .f32) :
    out3_B_2 c i a1 h1 a2 h2 a3 h3 hc x g xo = k3_pay2 g x xo := by
  unfold out3_B_2
  rw [View.read_writes_eq_canon _ _ _ (cover3_B_2 c i a1 h1 a2 h2 a3 h3 hc x g xo)]
  unfold kernelRun3_B
  dsimp only
  sl_unfold_words
  rw [View.canon_unit_zero hz]
  simp only [View.readAt_eq_ld, h1.read_unread, h2.read_unread, h3.read_unread, View.ld_unit_zero (S := S5000x64) hz,
    View.ld_unit_zero (S := S5000x1) hz, View.ld_unit_zero (S := S512x64) hz]

/-- THE FIRST POINT: the body first stores the zero block over the whole buffer, then does as at a later point; the
    buffer it loads is the zero block just stored, and the second store covers the first. -/
theorem out_A (c : Dev nD) (i : grid3.Coords) (a1 : Memref sig .tc .vmem S5000x64 .f32) (h1 : a1.IsWhole)
    (a2 : Memref sig .tc .vmem S5000x1 .i32) (h2 : a2.IsWhole) (a3 : Memref sig .tc .vmem S512x64 .f32) (h3 : a3.IsWhole)
    (hc : cond3_0 i) (x : Vec F S5000x64 .f32) (g : Vec F S5000x1 .i32) :
    out3_A_2 c i a1 h1 a2 h2 a3 h3 hc x g = k3_pay2 g x k3_pay1 := by
  unfold out3_A_2
  rw [View.read_writes_eq_canon _ _ _ (cover3_A_2 c i a1 h1 a2 h2 a3 h3 hc x g)]
  unfold kernelRun3_A
  dsimp only
  sl_unfold_words
  rw [View.canon_cons_unit_zero (S := S512x64) hz, View.readCov_unit_zero (S := S512x64) _ hz]
  simp only [View.readAt_eq_ld, h1.read_unread, h2.read_unread, View.ld_unit_zero (S := S5000x64) hz,
    View.ld_unit_zero (S := S5000x1) hz]

end Pieces

/-! ## The update at an entry

The product's dimension numbers contract axis 0 of BOTH operands (the five thousand rows) and keep axis 1 of each: at
the result's entry (a, b) and contraction position q the left operand is read at (q, a), the right one at (q, b). -/

/-- The left operand's row coordinate is the contraction position; -/
theorem lhs_ax0 (j : S512x64.Idx) (q : dot_S5000x512_S5000x64_S512x64_0_0_1_1_n_n.contr.Idx) :
    (dot_S5000x512_S5000x64_S512x64_0_0_1_1_n_n.lhsIdx j q 0).val = (q ⟨0, by decide⟩).val :=
  dot_S5000x512_S5000x64_S512x64_0_0_1_1_n_n.lhsIdx_val_of_single rfl j q
/-- its column coordinate is the result's row. -/
theorem lhs_ax1 (j : S512x64.Idx) (q : dot_S5000x512_S5000x64_S512x64_0_0_1_1_n_n.contr.Idx) :
    (dot_S5000x512_S5000x64_S512x64_0_0_1_1_n_n.lhsIdx j q 1).val = (j 0).val := by
  unfold DotDims.lhsIdx
  rw [dif_neg (show ¬(1 : Fin S5000x512.rank) ∈ dot_S5000x512_S5000x64_S512x64_0_0_1_1_n_n.lhsBatch by decide),
    dif_pos (show (1 : Fin S5000x512.rank) ∈ dot_S5000x512_S5000x64_S512x64_0_0_1_1_n_n.lhsNonContracting by decide)]
  rfl
/-- The right operand's row coordinate is the contraction position; -/
theorem rhs_ax0 (j : S512x64.Idx) (q : dot_S5000x512_S5000x64_S512x64_0_0_1_1_n_n.contr.Idx) :
    (dot_S5000x512_S5000x64_S512x64_0_0_1_1_n_n.rhsIdx j q 0).val = (q ⟨0, by decide⟩).val :=
  dot_S5000x512_S5000x64_S512x64_0_0_1_1_n_n.rhsIdx_val_of_single rfl j q
/-- its column coordinate is the result's column. -/
theorem rhs_ax1 (j : S512x64.Idx) (q : dot_S5000x512_S5000x64_S512x64_0_0_1_1_n_n.contr.Idx) :
    (dot_S5000x512_S5000x64_S512x64_0_0_1_1_n_n.rhsIdx j q 1).val = (j 1).val := by
  unfold DotDims.rhsIdx
  rw [dif_neg (show ¬(1 : Fin S5000x64.rank) ∈ dot_S5000x512_S5000x64_S512x64_0_0_1_1_n_n.rhsBatch by decide),
    dif_pos (show (1 : Fin S5000x64.rank) ∈ dot_S5000x512_S5000x64_S512x64_0_0_1_1_n_n.rhsNonContracting by decide)]
  rfl

/-- The product of the transposed block `oh` (rows by graphs) with the block `xb` (rows by features), into zero:
    at (a, b) the sum over the five thousand rows of `oh (r, a) * xb (r, b)`. -/
theorem matmul_idx (oh : FVec Ideal S5000x512 .bf16) (xb : FVec Ideal S5000x64 .bf16) (a : Fin 512) (b : Fin 64) :
    matmul dot_S5000x512_S5000x64_S512x64_0_0_1_1_n_n none oh xb (constant S512x64 .f32 0x00000000#32) (ix2 a b)
      = ∑ r : Fin 5000, oh (ix2 r a) * xb (ix2 r b) := by
  simp only [matmul]
  refine (Ideal.matmul_constant_zero_apply dot_S5000x512_S5000x64_S512x64_0_0_1_1_n_n none oh xb (ix2 a b)).trans ?_
  refine (Equiv.sum_comp (contrEquiv1 dot_S5000x512_S5000x64_S512x64_0_0_1_1_n_n 5000 rfl rfl).symm _).symm.trans ?_
  refine Finset.sum_congr rfl fun r _ => ?_
  have hk := contrEquiv1_symm_val dot_S5000x512_S5000x64_S512x64_0_0_1_1_n_n 5000 rfl rfl r
  have el : dot_S5000x512_S5000x64_S512x64_0_0_1_1_n_n.lhsIdx (ix2 a b)
      ((contrEquiv1 dot_S5000x512_S5000x64_S512x64_0_0_1_1_n_n 5000 rfl rfl).symm r) = ix2 r a :=
    funext fun d => Fin.ext (by
      match d with
      | ⟨0, _⟩ => exact (lhs_ax0 _ _).trans hk
      | ⟨1, _⟩ => exact lhs_ax1 _ _)
  have er : dot_S5000x512_S5000x64_S512x64_0_0_1_1_n_n.rhsIdx (ix2 a b)
      ((contrEquiv1 dot_S5000x512_S5000x64_S512x64_0_0_1_1_n_n 5000 rfl rfl).symm r) = ix2 r b :=
    funext fun d => Fin.ext (by
      match d with
      | ⟨0, _⟩ => exact (rhs_ax0 _ _).trans hk
      | ⟨1, _⟩ => exact rhs_ax1 _ _)
  rw [el, er]

/-- The kernel's one-hot block at (r, a): the weight of graph `a` for row `r`'s id. -/
theorem onehot_idx (g : IVec S5000x1 32) (sc : S5000x1.ShapeCasts S5000x1) (bc : S5000x1.Broadcasts S5000x512)
    (io : S5000x512.Iotas .tc 32 [1]) (l1 : 1 < 32) (l2 : FTy.bits .bf16 < FTy.bits .f32) (r : Fin 5000) (a : Fin 512) :
    (truncf .bf16 (sitofp .f32 (extui 32 (cmpi .eq (broadcastTo S5000x512 (shapeCast S5000x1 g sc) bc)
      (iota .tc S5000x512 32 [1] io)) l1) : FVec Ideal S5000x512 .f32) l2 : FVec Ideal S5000x512 .bf16) (ix2 r a)
      = hot (g (ix2 r (0 : Fin 1))) a.val := by
  show FloatOps.sitofp (F := Ideal) .f32 ((IntOp.cmpi .eq (broadcastTo S5000x512 (shapeCast S5000x1 g sc) bc (ix2 r a))
    (iota .tc S5000x512 32 [1] io (ix2 r a))).setWidth 32) = _
  rw [broadcastTo_apply (shapeCast S5000x1 g sc) bc (ix2 r a) (ix2 r (0 : Fin 1)) (fun a' => match a' with
      | ⟨0, _⟩ => by show r.val = if (5000 : Nat) = 1 then 0 else r.val; rw [if_neg (by decide)]
      | ⟨1, _⟩ => by show (0 : Fin 1).val = if (1 : Nat) = 1 then 0 else a.val; rw [if_pos rfl]; rfl),
    iota_single_apply, shapeCast_self]
  rfl

/-- The update at (a, b): the old entry plus the sum over the block's rows of the one-hot weight of graph `a` for the
    row's id times the row's feature `b` (the format changes are the identity on extended reals, the casts to the same
    shape the identity). -/
theorem pay2_apply (g : IVec S5000x1 32) (x : FVec Ideal S5000x64 .f32) (xo : FVec Ideal S512x64 .f32) (a : Fin 512) (b : Fin 64) :
    k3_pay2 (F := Ideal) g x xo (ix2 a b)
      = xo (ix2 a b) + ∑ r : Fin 5000, hot (g (ix2 r (0 : Fin 1))) a.val * x (ix2 r b) := by
  unfold k3_pay2
  dsimp only
  refine (addf_apply _ _ _).trans ?_
  refine congrArg₂ (· + ·) (congrFun (shapeCast_self xo _) _) ?_
  refine (matmul_idx _ _ a b).trans ?_
  refine Finset.sum_congr rfl fun r _ => ?_
  refine congrArg₂ (· * ·) (onehot_idx g _ _ _ _ _ r a) ?_
  show shapeCast S5000x64 x shapeCasts_S5000x64_S5000x64 (ix2 r b) = x (ix2 r b)
  exact congrFun (shapeCast_self x _) (ix2 r b)

/-! ## A block's rows in the arrays -/

/-- The two input windows' index maps, decided over the twenty points: point `t` reads block `(t, 0)`. -/
theorem index_in : ∀ t : Fin cfg3.N, win3_0.index t 0 = t.val ∧ win3_0.index t 1 = 0
    ∧ win3_1.index t 0 = t.val ∧ win3_1.index t 1 = 0 :=
  (by decide +kernel : ∀ t : Fin grid3.N, win3_0.index t 0 = t.val ∧ win3_0.index t 1 = 0
    ∧ win3_1.index t 0 = t.val ∧ win3_1.index t 1 = 0)

/-- The node rows and the graph ids of point `t`'s block, at their literal types. -/
abbrev xblk (c : Dev nD) (t : Fin cfg3.N) : FVec Ideal S5000x64 .f32 := iblk3 V c 0 t
abbrev gblk (c : Dev nD) (t : Fin cfg3.N) : IVec S5000x1 32 := iblk3 V c 1 t

/-- Row `r` of point `t`'s block of node rows is the array's row `5000 t + r`. -/
theorem xblk_apply (c : Dev nD) (t : Fin cfg3.N) (r : Fin 5000) (b : Fin 64) :
    xblk V c t (ix2 r b) = nodeRows V c (ix2 (nodeOf (t.cast N_3) r) b) := by
  have hi := index_in t
  unfold xblk iblk3
  rw [View.read_apply]
  show V c main_v57 _ = V c main_v57 _
  congr 1
  funext d
  apply Fin.ext
  match d with
  | ⟨0, _⟩ => show win3_0.index t 0 * 5000 + 1 * r.val = 5000 * t.val + r.val; rw [hi.1]; omega
  | ⟨1, _⟩ => show win3_0.index t 1 * 64 + 1 * b.val = b.val; rw [hi.2.1]; omega

/-- Row `r` of point `t`'s block of graph ids is the array's row `5000 t + r`. -/
theorem gblk_apply (c : Dev nD) (t : Fin cfg3.N) (r : Fin 5000) :
    gblk V c t (ix2 r (0 : Fin 1)) = graphIds V c (ix2 (nodeOf (t.cast N_3) r) (0 : Fin 1)) := by
  have hi := index_in t
  unfold gblk iblk3
  rw [View.read_apply]
  show V c main_v58 _ = V c main_v58 _
  congr 1
  funext d
  apply Fin.ext
  match d with
  | ⟨0, _⟩ => show win3_1.index t 0 * 5000 + 1 * r.val = 5000 * t.val + r.val; rw [hi.2.2.1]; omega
  | ⟨1, _⟩ => show win3_1.index t 1 * 1 + 1 * (0 : Fin 1).val = (0 : Fin 1).val; rw [hi.2.2.2]; omega

/-! ## The running sum -/

/-- Block `t`'s contribution to an entry, for any natural `t` (zero past the grid): the summand of the running sum. -/
def blockTerm (x : FVec Ideal Nodes64 .f32) (gid : IVec Nodes1 32) (i : Graphs64.Idx) (t : ℕ) : EReal :=
  if h : t < 20 then blockSum x gid ⟨t, h⟩ i else 0

/-- The pooled sum is the sum of the twenty blocks' terms. -/
theorem pooled_eq_range (x : FVec Ideal Nodes64 .f32) (gid : IVec Nodes1 32) (i : Graphs64.Idx) :
    pooled x gid i = ∑ t ∈ Finset.range 20, blockTerm x gid i t := by
  unfold pooled
  rw [Finset.sum_range]
  refine Finset.sum_congr rfl fun t _ => ?_
  unfold blockTerm
  rw [dif_pos t.isLt]

/-- What point `t` adds at (a, b), read off its two blocks, is block `t`'s term. -/
theorem contrib_eq (c : Dev nD) (t : Fin cfg3.N) (a : Fin 512) (b : Fin 64) :
    ∑ r : Fin 5000, hot (gblk V c t (ix2 r (0 : Fin 1))) a.val * xblk V c t (ix2 r b)
      = blockTerm (nodeRows V c) (graphIds V c) (ix2 a b) t.val := by
  have hN : cfg3.N = 20 := N_3
  have ht : t.val < 20 := by have := t.isLt; omega
  unfold blockTerm
  rw [dif_pos ht]
  unfold blockSum
  refine Finset.sum_congr rfl fun r _ => ?_
  rw [gblk_apply V c t r, xblk_apply V c t r b]
  rfl

/-- THE INVARIANT: after point `n` the output's buffer holds, at (a, b), the sum of the terms of blocks `0 … n`:
    the first point stores the zero block and adds its own term, every later point adds its term to what the
    point before left. By induction on the point. -/
theorem outsAt_eq (c : Dev nD) (a : Fin 512) (b : Fin 64) : ∀ (n : ℕ) (h : n < cfg3.N),
    (outsAt3 V c n h : FVec Ideal S512x64 .f32) (ix2 a b)
      = ∑ t ∈ Finset.range (n + 1), blockTerm (nodeRows V c) (graphIds V c) (ix2 a b) t
  | 0, h => by
    rw [outsAt3_A V c ⟨0, h⟩ (Nat.zero_mod 20)]
    refine (congrFun (out_A (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) ((hcond3_0 ⟨0, h⟩).mpr (Nat.zero_mod 20)) (xblk V c ⟨0, h⟩) (gblk V c ⟨0, h⟩)) (ix2 a b)).trans ?_
    refine (pay2_apply (gblk V c ⟨0, h⟩) (xblk V c ⟨0, h⟩) (k3_pay1 (F := Ideal)) a b).trans ?_
    rw [Finset.sum_range_one, contrib_eq V c ⟨0, h⟩ a b]
    show Ideal.ofBits .f32 0x00000000#32 + _ = _
    rw [Ideal.ofBits_zero_f32, zero_add]
  | n + 1, h => by
    have hN : cfg3.N = 20 := N_3
    have hB : ¬(⟨n + 1, h⟩ : Fin cfg3.N).val % 20 = 0 := by dsimp only; omega
    rw [outsAt3_B V c ⟨n + 1, h⟩ hB]
    dsimp only
    refine (congrFun (out_B (F := Ideal) c (grid3.coords ⟨n + 1, h⟩) (ms3_0 ⟨n + 1, h⟩) (hs3_0 ⟨n + 1, h⟩) (ms3_1 ⟨n + 1, h⟩)
      (hs3_1 ⟨n + 1, h⟩) (ms3_2 ⟨n + 1, h⟩) (hs3_2 ⟨n + 1, h⟩) (fun hc => hB ((hcond3_0 ⟨n + 1, h⟩).mp hc))
      (xblk V c ⟨n + 1, h⟩) (gblk V c ⟨n + 1, h⟩) (outsAt3 V c n (Nat.lt_of_succ_lt h))) (ix2 a b)).trans ?_
    refine (pay2_apply (gblk V c ⟨n + 1, h⟩) (xblk V c ⟨n + 1, h⟩) (outsAt3 V c n (Nat.lt_of_succ_lt h)) a b).trans ?_
    rw [outsAt_eq c a b n (Nat.lt_of_succ_lt h), Finset.sum_range_succ _ (n + 1), contrib_eq V c ⟨n + 1, h⟩ a b]

/-! ## The write-back -/

/-- The last point, the only one that writes the output block back. -/
abbrev tLast : Fin cfg3.N := ⟨19, (by decide : 19 < grid3.N)⟩

/-- The one write-back, at the last point: the output's one block is the whole array (block index (0, 0), read through
    zero offsets), and the buffer then holds the sum of all twenty blocks' terms, the pooled sums. -/
theorem flushed_eq (c : Dev nD) (t : Fin cfg3.N) (hf : (cfg3.win 2).flush t = true) :
    (dat3 (F := Ideal) V c).flushed 2 t
      = ((cfg3.win 2).blk t).view.read (Elt Ideal)
          (pooled (nodeRows V c) (graphIds V c) : Buf (Elt Ideal) ((c : Thread nD τ).loc main_v59)) := by
  have hN : cfg3.N = 20 := N_3
  have h19 : t.val = 19 := by have := (flush3_2 t).mp hf; have := t.isLt; omega
  obtain rfl : t = tLast := Fin.ext h19
  show (cfg3.win 2).cut (grid3.coords tLast) ((dat3 (F := Ideal) V c).after 2 tLast) = _
  rw [after3_2]
  have hz' : (fun a => win3_2.index tLast a * main_v59.ty.shape.size a) = fun _ => 0 :=
    funext fun a => by fin_cases a <;> decide
  refine Eq.trans ?_ (Memref.read_access_unit_zero (Elt Ideal) main_v59 hz' (fun a => by rw [congrFun hz' a]; simp)
    (pooled (nodeRows V c) (graphIds V c) : Buf (Elt Ideal) ((c : Thread nD τ).loc main_v59))).symm
  show (outsAt3 V c tLast.val tLast.isLt : FVec Ideal S512x64 .f32) = pooled (nodeRows V c) (graphIds V c)
  funext i
  obtain ⟨a, b, rfl⟩ : ∃ (a : Fin 512) (b : Fin 64), i = ix2 a b := ⟨i 0, i 1, eq_ix2 i⟩
  rw [outsAt_eq V c a b tLast.val tLast.isLt, pooled_eq_range]

/-- The output window's block at the last point: block index (0, 0), all 512 rows and all 64 columns. -/
theorem out_block : win3_2.index tLast 0 * win3_2.size 0 = 0 ∧ win3_2.xsize (grid3.coords tLast) 0 = 512
    ∧ win3_2.index tLast 1 * win3_2.size 1 = 0 ∧ win3_2.xsize (grid3.coords tLast) 1 = 64 := by decide +kernel

/-- So every entry of the array is in the block the last point writes back. -/
theorem cover (i : S512x64.Idx) :
    ∃ t : Fin cfg3.N, (cfg3.win 2).flush t = true ∧ i ∈ ((cfg3.win 2).blk t).view.set := by
  refine ⟨tLast, (flush3_2 tLast).mpr rfl, ?_⟩
  show i ∈ ((View.whole main_v59).slice (win3_2.rect tLast)).set
  rw [View.set_slice_whole, Rect.mem_set_unit]
  have e := out_block
  have h0 : (i 0 : Nat) < 512 := (i 0).isLt
  have h1 : (i 1 : Nat) < 64 := (i 1).isLt
  intro d
  match d with
  | ⟨0, _⟩ =>
    show win3_2.index tLast 0 * win3_2.size 0 ≤ (i 0 : Nat)
      ∧ (i 0 : Nat) < win3_2.index tLast 0 * win3_2.size 0 + win3_2.xsize (grid3.coords tLast) 0
    rw [e.1, e.2.1]; omega
  | ⟨1, _⟩ =>
    show win3_2.index tLast 1 * win3_2.size 1 ≤ (i 1 : Nat)
      ∧ (i 1 : Nat) < win3_2.index tLast 1 * win3_2.size 1 + win3_2.xsize (grid3.coords tLast) 1
    rw [e.2.2.1, e.2.2.2]; omega

/-- After the run the output array holds every graph's sum of its nodes' rows. -/
theorem final (c : Dev nD) :
    (dat3 (F := Ideal) V c).arrAt 2 cfg3.N
      = (pooled (nodeRows V c) (graphIds V c) : Buf (Elt Ideal) ((c : Thread nD τ).loc main_v59)) := by
  exact (dat3 (F := Ideal) V c).arrAt_eq_of_cover 2
    (pooled (nodeRows V c) (graphIds V c) : Buf (Elt Ideal) ((c : Thread nD τ).loc main_v59)) (flushed_eq V c) cover

end Cert.KernelIdeal.PoolRegion

end
-- ==== Proof.RefTableRows.lean ====
/-
  The reference's table lookup read at an element. jnp's `atom_table[atom_types]` prints as a wrap of negative
  labels (add 95 where the label is negative) followed by a gather along the table's rows, whose start index is read
  signed and clamped into the table. For a label that is one of the 95 categories neither the wrap nor the clamp
  moves it: row `n` of the gathered array is the table's row of node `n`'s label.
-/
import proofs.«421342_j91139206021791_3_alg».proof.Proof.Gen.ReferenceIdeal.Read
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx

namespace Cert.ReferenceIdeal.TableRows

open Cert.ReferenceIdeal Cert.ReferenceIdeal.Read

/-! ## The gather along the table's rows, read at an element

The operand is the table `[95, 200]`, the start indices the column `[100000, 1]` of labels, the result `[100000, 200]`.
Operand axis 0 is collapsed and is the one axis the start index names; operand axis 1 is the one offset axis, read by
the result's axis 1 at the full slice size 200. So result element `(n, k)` reads the operand at
`(clamp (label n), k)`: on axis 0 the start index read signed and clamped into `[0, 95 − 1]`, with no batching and no
offset coordinate; on axis 1 the start `0`, no batching coordinate, and the offset coordinate `k`. -/

/-- The gather's dimension numbers, under a short name. -/
abbrev rowsDims : GatherDims S95x200 S100000x1 S100000x200 := gather_S95x200_S100000x1_S100000x200_1_0_n_n_0_1_1200

/-- The gather read at `(n, k)`: the table at row `min (start index of n, signed) 94` and column `k`. -/
theorem gather_row_apply {α : Type} {w : Nat} (x : S95x200.Idx → α) (idx : IVec S100000x1 w)
    (n : Fin 100000) (k : Fin 200) :
    Host.gather rowsDims x idx (ix2 n k)
      = x (ix2 (⟨min (idx (ix2 n (0 : Fin 1))).toInt.toNat 94, by omega⟩ : Fin 95) k) := by
  unfold Host.gather
  congr 1
  funext a
  refine Fin.ext ?_
  match a with
  | ⟨0, _⟩ =>
    -- the collapsed axis: the clamped start alone
    show rowsDims.start (ix2 n k) idx 0 + rowsDims.batchCoord (ix2 n k) 0 + rowsDims.offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowsDims.startIndexMap from List.mem_singleton.mpr rfl)]
    -- the start index's one component is read at `[n, 0]`: the result's batch coordinate, then the index vector's axis
    have hsi : rowsDims.siIdx (ix2 n k) ⟨List.idxOf (0 : Fin 2) rowsDims.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    -- the clamp's upper end is the axis' size less the slice size, `95 − 1`
    rfl
  | ⟨1, _⟩ =>
    -- the offset axis: start `0` (the start index does not name it), the offset coordinate the result's second
    show rowsDims.start (ix2 n k) idx 1 + rowsDims.batchCoord (ix2 n k) 1 + rowsDims.offCoord (ix2 n k) 1 = k.val
    rw [GatherDims.batchCoord_eq_zero _ _ _ List.not_mem_nil]
    unfold GatherDims.start
    rw [dif_neg (show (1 : Fin 2) ∉ rowsDims.startIndexMap by decide)]
    unfold GatherDims.offCoord
    rw [dif_pos (show (1 : Fin 2) ∈ rowsDims.sKept by decide)]
    simp only [Nat.add_zero, Nat.zero_add]
    rfl

/-! ## A category's word

A label `a < 95` as a 32-bit word is far below `2³¹`: read signed it is `a` itself, and it is not less than `0`. -/

/-- The word of a category reads signed as the category. -/
theorem word_toInt (a : Fin 95) : (BitVec.ofNat 32 a.val).toInt = (a.val : Int) := by
  have h := a.isLt
  rw [BitVec.toInt_eq_toNat_cond, BitVec.toNat_ofNat]
  have hm : a.val % 2 ^ 32 = a.val := Nat.mod_eq_of_lt (by omega)
  rw [hm, if_pos (by omega)]

/-- The word of a category is not signed-less-than `0`: the comparison's bit is `0`. -/
theorem word_not_neg (a : Fin 95) : IntOp.cmpi .slt (BitVec.ofNat 32 a.val) 0#32 = 0#1 := by
  unfold IntOp.cmpi
  show BitVec.ofBool ((BitVec.ofNat 32 a.val).slt 0#32) = 0#1
  have hlt : (BitVec.ofNat 32 a.val).slt 0#32 = false := by
    unfold BitVec.slt
    rw [word_toInt]
    have h0 : (0#32 : BitVec 32).toInt = 0 := by decide
    rw [h0]
    exact decide_eq_false (by omega)
  rw [hlt]; rfl

/-! ## The wrapped label, as the gather's start index

The start indices are the wrapped labels broadcast to a column: entry `[n, 0]` is `select (label n < 0) (label n + 95)
(label n)`. For a category the comparison's bit is `0` and the select keeps the label. -/

/-- The start index of row `n` is the label's word when the label is a category. -/
theorem start_word (x0 : IVec S100000 32) (n : Fin 100000) (a : Fin 95)
    (ha : x0 (ix1 n) = BitVec.ofNat 32 a.val) :
    val_main_v10 (F := Ideal) x0 (ix2 n (0 : Fin 1)) = BitVec.ofNat 32 a.val := by
  have hidx : idx_main_v10 (ix2 n (0 : Fin 1)) = ix1 n := by
    funext d
    match d with
    | ⟨0, _⟩ => rfl
  rw [val_main_v10_apply, hidx, val_main_v9_apply, val_main_v6_apply, val_main_v5_apply, val_main_c_apply, ha,
    word_not_neg, select_zero]

/-- Where node `n`'s label is the category `a`, row `n` of the gathered array is row `a` of the table. -/
theorem gathered_row (x0 : IVec S100000 32) (x5 : FVec Ideal S95x200 .f32) (n : Fin 100000) (k : Fin 200) (a : Fin 95)
    (ha : x0 (ix1 n) = BitVec.ofNat 32 a.val) :
    val_main_v11 (F := Ideal) x0 x5 (ix2 n k) = x5 (ix2 a k) := by
  unfold val_main_v11
  rw [gather_row_apply]
  congr 1
  funext d
  match d with
  | ⟨0, _⟩ =>
    -- the clamp does not move a category: `min a 94 = a`
    refine Fin.ext ?_
    show min (val_main_v10 (F := Ideal) x0 (ix2 n (0 : Fin 1))).toInt.toNat 94 = a.val
    rw [start_word x0 n a ha, word_toInt]
    have h := a.isLt
    omega
  | ⟨1, _⟩ => rfl

end Cert.ReferenceIdeal.TableRows

end
-- ==== Proof.RefPoolRows.lean ====
/-
  The reference's pooling read at an element. `segment_sum(x, graph_ids, 512)` prints as an accumulating scatter of
  the node rows into a [512, 64] array along its first axis: update row `n` lands on row `graph_ids[n]` (read
  signed, not clamped) when that is one of the 512 rows and is dropped otherwise. Over the extended reals the result
  at (g, f) is the operand's element plus the sum, over the nodes whose id is `g`, of their feature `f`.
-/
import proofs.«421342_j91139206021791_3_alg».proof.Proof.Gen.ReferenceIdeal.Read
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.PoolRows

open Cert.ReferenceIdeal

/-! ## Where an update element lands

The scatter's dimension numbers are: update window axes `[1]`, inserted window axes `[0]`, scatter axes to operand axes
`[0]`, index vector on axis 1 of the ids. For the update index `j = (n, f')` the landing coordinate on an operand axis
is the start plus the window coordinate. Operand axis 0 is the inserted one and the one the map names: its start is the
id read at `(n, 0)` as a signed integer and its window coordinate is 0. Operand axis 1 is the one window axis, not named
by the map: its start is 0 and its window coordinate is `f'`. -/

local notation "dS" => scatter_S512x64_S100000x1_S100000x64_1_0_0_1

/-- On operand axis 0 the start is the id of the update's row, read signed: the start index of `(n, f')` is read at
    `(n, 0)`, the update's one scatter coordinate with component 0 on the index vector's axis. -/
theorem start_axis0 (ids : IVec S100000x1 32) (j : S100000x64.Idx) :
    ScatterDims.start dS j ids (0 : Fin 2) = (ids (ix2 (j 0) (0 : Fin 1))).toInt := by
  unfold ScatterDims.start
  rw [dif_pos (show (0 : Fin 2) ∈ (dS).scatterDimsToOperandDims from List.mem_singleton.mpr rfl)]
  congr 2
  funext b
  refine Fin.ext ?_
  match b with
  | ⟨0, _⟩ => rfl
  | ⟨1, _⟩ => rfl

/-- Operand axis 1 is not in the map: its start is 0. -/
theorem start_axis1 (ids : IVec S100000x1 32) (j : S100000x64.Idx) :
    ScatterDims.start dS j ids (1 : Fin 2) = 0 := by
  unfold ScatterDims.start
  rw [dif_neg (show (1 : Fin 2) ∉ (dS).scatterDimsToOperandDims by decide)]

/-- Operand axis 0 is an inserted axis: its window coordinate is 0. -/
theorem window_axis0 (j : S100000x64.Idx) : ScatterDims.window dS j (0 : Fin 2) = 0 := by
  unfold ScatterDims.window
  rw [dif_neg (show (0 : Fin 2) ∉ (dS).sKept by decide)]

/-- Operand axis 1 is the one kept axis, fed by the update's window axis 1: its window coordinate is `f'`. -/
theorem window_axis1 (j : S100000x64.Idx) : ScatterDims.window dS j (1 : Fin 2) = (j 1).val := by
  unfold ScatterDims.window
  rw [dif_pos (show (1 : Fin 2) ∈ (dS).sKept by decide)]
  rfl

/-- A 32-bit word whose signed value is `g`, `g` below 512, is the word of the natural number `g`, and conversely:
    below `2 ^ 31` the signed and the unsigned readings agree. -/
theorem toInt_eq_iff (x : BitVec 32) (g : Fin 512) : x.toInt = (g.val : Int) ↔ x = BitVec.ofNat 32 g.val := by
  constructor
  · intro h
    rw [← BitVec.ofInt_toInt (x := x), h, BitVec.ofInt_natCast]
  · rintro rfl
    rw [BitVec.toInt_eq_toNat_cond, BitVec.toNat_ofNat]
    have := g.isLt
    omega

/-- The update element `j = (n, f')` lands on `(g, f)` exactly when the id of row `n`, read signed, is `g` and
    `f' = f`. The landing index exists when start plus window coordinate is inside the operand on both axes; on axis 1
    that is `f' < 64`, which always holds, and on axis 0 it is `0 ≤ id < 512`, which `id = g` gives. -/
theorem lands_iff (ids : IVec S100000x1 32) (j : S100000x64.Idx) (g : Fin 512) (f : Fin 64) :
    ScatterDims.resultIdx? dS j ids = some (ix2 g f)
      ↔ (ids (ix2 (j 0) (0 : Fin 1))).toInt = (g.val : Int) ∧ j 1 = f := by
  have hs0 : ((S512x64.size (0 : Fin 2) : Nat) : Int) = 512 := rfl
  have hs1 : ((S512x64.size (1 : Fin 2) : Nat) : Int) = 64 := rfl
  have hj1 := idx2_lt1 j
  unfold ScatterDims.resultIdx?
  split_ifs with h
  · -- inside the operand on both axes: compare the landing index with (g, f) coordinate by coordinate
    rw [Option.some.injEq]
    constructor
    · intro e
      have e0 : (ScatterDims.start dS j ids (0 : Fin 2) + ScatterDims.window dS j (0 : Fin 2)).toNat = g.val :=
        congrArg (fun i : S512x64.Idx => (i (0 : Fin 2)).val) e
      have e1 : (ScatterDims.start dS j ids (1 : Fin 2) + ScatterDims.window dS j (1 : Fin 2)).toNat = f.val :=
        congrArg (fun i : S512x64.Idx => (i (1 : Fin 2)).val) e
      have h0 := (h (0 : Fin 2)).1
      rw [start_axis0, window_axis0] at e0 h0
      rw [start_axis1, window_axis1] at e1
      exact ⟨by omega, Fin.ext (by omega)⟩
    · rintro ⟨e0, e1⟩
      funext a
      refine Fin.ext ?_
      match a with
      | ⟨0, _⟩ =>
        show (ScatterDims.start dS j ids (0 : Fin 2) + ScatterDims.window dS j (0 : Fin 2)).toNat = g.val
        rw [start_axis0, window_axis0]; omega
      | ⟨1, _⟩ =>
        show (ScatterDims.start dS j ids (1 : Fin 2) + ScatterDims.window dS j (1 : Fin 2)).toNat = f.val
        rw [start_axis1, window_axis1, ← e1]; omega
  · -- outside on some axis: the update is dropped, and the id cannot be one of the 512 rows
    constructor
    · intro e; exact absurd e (by simp)
    · rintro ⟨e0, e1⟩
      refine absurd (fun a => ?_) h
      have hg := g.isLt
      match a with
      | ⟨0, _⟩ =>
        show 0 ≤ ScatterDims.start dS j ids (0 : Fin 2) + ScatterDims.window dS j (0 : Fin 2)
          ∧ ScatterDims.start dS j ids (0 : Fin 2) + ScatterDims.window dS j (0 : Fin 2) < ((S512x64.size (0 : Fin 2) : Nat) : Int)
        rw [start_axis0, window_axis0, hs0]; omega
      | ⟨1, _⟩ =>
        show 0 ≤ ScatterDims.start dS j ids (1 : Fin 2) + ScatterDims.window dS j (1 : Fin 2)
          ∧ ScatterDims.start dS j ids (1 : Fin 2) + ScatterDims.window dS j (1 : Fin 2) < ((S512x64.size (1 : Fin 2) : Nat) : Int)
        rw [start_axis1, window_axis1, hs1]; omega

/-! ## The scatter at an element

The ideal accumulating scatter at `(g, f)` is the operand there plus the sum of the update elements that land there.
That filtered sum over the update's index set is the double sum over rows `n` and features `f'` of an `if`; by the
landing criterion the `if` holds exactly when row `n`'s id is the word of `g` and `f' = f`, so for a row with that id
the inner sum keeps its one term at `f' = f` and for any other row it is zero. -/

/-- The accumulating scatter along the first axis, at an element: the operand there plus the rows that land there. -/
theorem scattered_rows (z : FVec Ideal S512x64 .f32) (ids : IVec S100000x1 32) (u : FVec Ideal S100000x64 .f32)
    (g : Fin 512) (f : Fin 64) :
    Host.scatterAdd scatter_S512x64_S100000x1_S100000x64_1_0_0_1 z ids u (ix2 g f)
      = z (ix2 g f) + ∑ n : Fin 100000, if ids (ix2 n (0 : Fin 1)) = BitVec.ofNat 32 g.val then u (ix2 n f) else 0 := by
  unfold Host.scatterAdd
  rw [Ideal.hostScatterAdd_def]
  unfold Ideal.hostScatterAdd
  refine congrArg (z (ix2 g f) + ·) ?_
  -- the filtered sum as a double sum over rows and features
  rw [Finset.sum_filter, sum_idx2]
  refine Finset.sum_congr rfl fun n _ => ?_
  have key : ∀ f' : Fin 64, ScatterDims.resultIdx? dS (ix2 n f') ids = some (ix2 g f)
      ↔ ids (ix2 n (0 : Fin 1)) = BitVec.ofNat 32 g.val ∧ f' = f := fun f' => by
    rw [lands_iff, toInt_eq_iff]
    exact Iff.rfl
  by_cases hn : ids (ix2 n (0 : Fin 1)) = BitVec.ofNat 32 g.val
  · -- row n has id g: of its 64 features only f' = f lands on (g, f)
    rw [if_pos hn]
    rw [Finset.sum_congr rfl (fun f' _ => if_congr ((key f').trans (and_iff_right hn)) rfl rfl)]
    rw [Finset.sum_ite_eq' Finset.univ f (fun f' => u (ix2 n f')), if_pos (Finset.mem_univ f)]
  · -- row n has another id: none of its features lands on row g
    rw [if_neg hn]
    exact Finset.sum_eq_zero fun f' _ => if_neg fun e => hn ((key f').mp e).1

end Cert.ReferenceIdeal.PoolRows

end
-- ==== Proof.Bridges.lean ====
/-
  Where the kernels' whole-array functions meet the reference's stages, element by element.

  The embedding: under the label range a node's one-hot combination of the folded table's rows is the table row of
  its own label, and the folded table's row is that row of the atom table times the embedding matrix plus the bias:
  the reference's gather-then-multiply, scaled by the same source normalisation.
  The dense layers: a row of the aggregated messages times the weight matrix is the reference's matrix product at
  that row; the row scale, the bias row, the clamp at zero and the second row scale are the reference's broadcasts
  read at the element.
  The pooling: the sum over the twenty blocks of a graph's one-hot combination of the block's rows is the sum over
  all nodes of the rows whose id is that graph, which is what the reference's accumulating scatter leaves there on
  top of its zero operand.
-/
import proofs.«421342_j91139206021791_3_alg».proof.Proof.Gen.ReferenceIdeal.Read
import proofs.«421342_j91139206021791_3_alg».proof.Proof.Spec
import proofs.«421342_j91139206021791_3_alg».proof.Proof.Laws
import proofs.«421342_j91139206021791_3_alg».proof.Proof.RefTableRows
import proofs.«421342_j91139206021791_3_alg».proof.Proof.RefPoolRows

set_option maxRecDepth 16384

noncomputable section

open Idealize.ShloMosaic Idealize.ShloMosaic.TcCoe Idealize.SL.Sem Idealize.ShloMosaic.ValueIdx

namespace Cert.ReferenceIdeal.Bridges

open Cert.ReferenceIdeal Cert.ReferenceIdeal.Read Cert.GcnSpec

/-- The embedded rows are the reference's scaled node features, when every label is a category word. -/
theorem embedded_eq (x0 : IVec S100000 32) (x1 : IVec S1200000 32) (x5 : FVec Ideal S95x200 .f32) (x6 : FVec Ideal S200x64 .f32)
    (x7 : FVec Ideal S64 .f32)
    (hlab : ∀ n : Fin 100000, ∃ a : Fin 95, x0 (ix1 n) = BitVec.ofNat 32 a.val)
    (lab : IVec Nodes1 32) (hl : ∀ n : Fin 100000, lab (ix2 n (0 : Fin 1)) = x0 (ix1 n))
    (tbl : FVec Ideal Table .f32)
    (ht : ∀ (a : Fin 95) (f : Fin 64), tbl (ix2 a f) = (∑ k : Fin 200, x5 (ix2 a k) * x6 (ix2 k f)) + x7 (ix1 f))
    (sc : FVec Ideal Nodes1 .f32) (hs : ∀ n : Fin 100000, sc (ix2 n (0 : Fin 1)) = val_main_v25 (F := Ideal) x1 (ix1 n)) :
    embedded lab tbl sc = val_main_v31 (F := Ideal) x0 x1 x5 x6 x7 := by
  funext i
  obtain ⟨n, f, rfl⟩ : ∃ (n : Fin 100000) (f : Fin 64), i = ix2 n f := ⟨i 0, i 1, eq_ix2 i⟩
  obtain ⟨a, ha⟩ := hlab n
  have hk : embedded lab tbl sc (ix2 n f) = tbl (ix2 a f) * sc (ix2 n (0 : Fin 1)) := by
    show (∑ k : Fin 95, hot (lab (ix2 n (0 : Fin 1))) k.val * tbl (ix2 k f)) * sc (ix2 n (0 : Fin 1)) = _
    rw [hl, ha, hot_sum_select (by norm_num) a (fun k => tbl (ix2 k f))]
  rw [hk, ht, hs]
  rw [val_main_v31_apply, val_main_v15_apply, val_main_v12_apply, val_main_v14_apply, val_main_v13_apply,
    val_main_v30_apply, val_main_v29_apply]
  have hrow : ∀ k : Fin 200, val_main_v11 (F := Ideal) x0 x5 (lidx_main_v12 (ix2 n f) k) = x5 (ix2 a k) := fun k => by
    rw [show lidx_main_v12 (ix2 n f) k = ix2 n k from funext fun d => by match d with | ⟨0, _⟩ => rfl | ⟨1, _⟩ => rfl]
    exact Cert.ReferenceIdeal.TableRows.gathered_row x0 x5 n k a ha
  have hr : ∀ k : Fin 200, ridx_main_v12 (ix2 n f) k = ix2 k f := fun k =>
    funext fun d => by match d with | ⟨0, _⟩ => rfl | ⟨1, _⟩ => rfl
  have h7 : idx_main_v13 (idx_main_v14 (ix2 n f)) = ix1 f := funext fun d => by match d with | ⟨0, _⟩ => rfl
  have hn : idx_main_v29 (idx_main_v30 (ix2 n f)) = ix1 n := funext fun d => by match d with | ⟨0, _⟩ => rfl
  simp only [hrow, hr, h7, hn]
  rfl

/-- The first layer's rows are the reference's clamped, scaled rows. -/
theorem denseRelu_eq (x0 : IVec S100000 32) (x1 x2 : IVec S1200000 32) (x3 : FVec Ideal S1200000 .f32)
    (x5 : FVec Ideal S95x200 .f32) (x6 : FVec Ideal S200x64 .f32) (x7 : FVec Ideal S64 .f32) (x8 : FVec Ideal S64x64 .f32) (x9 : FVec Ideal S64 .f32)
    (sd : FVec Ideal Nodes1 .f32) (hsd : ∀ n : Fin 100000, sd (ix2 n (0 : Fin 1)) = val_main_v28 (F := Ideal) x2 (ix1 n))
    (bb : FVec Ideal Bias .f32) (hb : ∀ f : Fin 64, bb (ix2 (0 : Fin 1) f) = x9 (ix1 f))
    (ss : FVec Ideal Nodes1 .f32) (hss : ∀ n : Fin 100000, ss (ix2 n (0 : Fin 1)) = val_main_v62 (F := Ideal) x1 (ix1 n)) :
    denseRelu (val_main_v44 (F := Ideal) x0 x1 x2 x3 x5 x6 x7) x8 sd bb ss = val_main_v68 (F := Ideal) x0 x1 x2 x3 x5 x6 x7 x8 x9 := by
  funext i
  obtain ⟨n, f, rfl⟩ : ∃ (n : Fin 100000) (f : Fin 64), i = ix2 n f := ⟨i 0, i 1, eq_ix2 i⟩
  show max ((∑ k : Fin 64, val_main_v44 (F := Ideal) x0 x1 x2 x3 x5 x6 x7 (ix2 n k) * x8 (ix2 k f)) * sd (ix2 n (0 : Fin 1))
      + bb (ix2 (0 : Fin 1) f)) (Ideal.ofBits .f32 0x00000000#32) * ss (ix2 n (0 : Fin 1)) = _
  rw [hsd, hb, hss, val_main_v68_apply, val_main_v52_apply, val_main_v51_apply, val_main_v48_apply, val_main_v45_apply,
    val_main_v47_apply, val_main_v46_apply, val_main_v50_apply, val_main_v49_apply, val_main_call2_v0_apply,
    val_main_call2_cst_apply, val_main_v67_apply, val_main_v66_apply]
  have hl : ∀ k : Fin 64, lidx_main_v45 (ix2 n f) k = ix2 n k := fun k =>
    funext fun d => by match d with | ⟨0, _⟩ => rfl | ⟨1, _⟩ => rfl
  have hr : ∀ k : Fin 64, ridx_main_v45 (ix2 n f) k = ix2 k f := fun k =>
    funext fun d => by match d with | ⟨0, _⟩ => rfl | ⟨1, _⟩ => rfl
  have hd : idx_main_v46 (idx_main_v47 (ix2 n f)) = ix1 n := funext fun d => by match d with | ⟨0, _⟩ => rfl
  have hbi : idx_main_v49 (idx_main_v50 (ix2 n f)) = ix1 f := funext fun d => by match d with | ⟨0, _⟩ => rfl
  have hs : idx_main_v66 (idx_main_v67 (ix2 n f)) = ix1 n := funext fun d => by match d with | ⟨0, _⟩ => rfl
  simp only [hl, hr, hd, hbi, hs]
  rfl

/-- The second layer's rows are the reference's. -/
theorem dense_eq (x0 : IVec S100000 32) (x1 x2 : IVec S1200000 32) (x3 : FVec Ideal S1200000 .f32)
    (x5 : FVec Ideal S95x200 .f32) (x6 : FVec Ideal S200x64 .f32) (x7 : FVec Ideal S64 .f32) (x8 : FVec Ideal S64x64 .f32) (x9 : FVec Ideal S64 .f32)
    (x10 : FVec Ideal S64x64 .f32) (x11 : FVec Ideal S64 .f32)
    (sd : FVec Ideal Nodes1 .f32) (hsd : ∀ n : Fin 100000, sd (ix2 n (0 : Fin 1)) = val_main_v65 (F := Ideal) x2 (ix1 n))
    (bb : FVec Ideal Bias .f32) (hb : ∀ f : Fin 64, bb (ix2 (0 : Fin 1) f) = x11 (ix1 f)) :
    dense (val_main_v81 (F := Ideal) x0 x1 x2 x3 x5 x6 x7 x8 x9) x10 sd bb = val_main_v88 (F := Ideal) x0 x1 x2 x3 x5 x6 x7 x8 x9 x10 x11 := by
  funext i
  obtain ⟨n, f, rfl⟩ : ∃ (n : Fin 100000) (f : Fin 64), i = ix2 n f := ⟨i 0, i 1, eq_ix2 i⟩
  show (∑ k : Fin 64, val_main_v81 (F := Ideal) x0 x1 x2 x3 x5 x6 x7 x8 x9 (ix2 n k) * x10 (ix2 k f)) * sd (ix2 n (0 : Fin 1))
      + bb (ix2 (0 : Fin 1) f) = _
  rw [hsd, hb, val_main_v88_apply, val_main_v85_apply, val_main_v82_apply, val_main_v84_apply, val_main_v83_apply,
    val_main_v87_apply, val_main_v86_apply]
  have hl : ∀ k : Fin 64, lidx_main_v82 (ix2 n f) k = ix2 n k := fun k =>
    funext fun d => by match d with | ⟨0, _⟩ => rfl | ⟨1, _⟩ => rfl
  have hr : ∀ k : Fin 64, ridx_main_v82 (ix2 n f) k = ix2 k f := fun k =>
    funext fun d => by match d with | ⟨0, _⟩ => rfl | ⟨1, _⟩ => rfl
  have hd : idx_main_v83 (idx_main_v84 (ix2 n f)) = ix1 n := funext fun d => by match d with | ⟨0, _⟩ => rfl
  have hbi : idx_main_v86 (idx_main_v87 (ix2 n f)) = ix1 f := funext fun d => by match d with | ⟨0, _⟩ => rfl
  simp only [hl, hr, hd, hbi]
  rfl

/-- The pooled sums are the reference's segment sums. -/
theorem pooled_eq (x0 : IVec S100000 32) (x1 x2 : IVec S1200000 32) (x3 : FVec Ideal S1200000 .f32) (x4 : IVec S100000 32)
    (x5 : FVec Ideal S95x200 .f32) (x6 : FVec Ideal S200x64 .f32) (x7 : FVec Ideal S64 .f32) (x8 : FVec Ideal S64x64 .f32) (x9 : FVec Ideal S64 .f32)
    (x10 : FVec Ideal S64x64 .f32) (x11 : FVec Ideal S64 .f32)
    (gid : IVec Nodes1 32) (hg : ∀ n : Fin 100000, gid (ix2 n (0 : Fin 1)) = x4 (ix1 n)) :
    pooled (val_main_v88 (F := Ideal) x0 x1 x2 x3 x5 x6 x7 x8 x9 x10 x11) gid = val_main_v91 (F := Ideal) x0 x1 x2 x3 x4 x5 x6 x7 x8 x9 x10 x11 := by
  unfold val_main_v91
  generalize val_main_v88 (F := Ideal) x0 x1 x2 x3 x5 x6 x7 x8 x9 x10 x11 = X
  funext i
  obtain ⟨g, f, rfl⟩ : ∃ (g : Fin 512) (f : Fin 64), i = ix2 g f := ⟨i 0, i 1, eq_ix2 i⟩
  rw [Cert.ReferenceIdeal.PoolRows.scattered_rows, val_main_v89_apply, val_main_cst_21_apply]
  show (∑ t : Fin 20, ∑ r : Fin 5000, hot (gid (ix2 (nodeOf t r) (0 : Fin 1))) g.val * X (ix2 (nodeOf t r) f)) = _
  rw [← sum_nodes (fun n => hot (gid (ix2 n (0 : Fin 1))) g.val * X (ix2 n f))]
  show _ = Ideal.ofBits .f32 0x00000000#32 + _
  rw [Ideal.ofBits_zero_f32, zero_add]
  refine Finset.sum_congr rfl fun n _ => ?_
  rw [hot_mul, hg, val_main_v90_apply,
    show idx_main_v90 (ix2 n (0 : Fin 1)) = ix1 n from funext fun d => by match d with | ⟨0, _⟩ => rfl]

end Cert.ReferenceIdeal.Bridges

end
-- ==== Proof.HostReads.lean ====
/-
  What the kernel program's host operations leave in the buffers the four kernels and the last division read, at
  any float instance. The program's host side computes, from the argument arrays, exactly the stages of the
  reference's host program wherever the two spell the same operations (the degree counts and their normalisations,
  the gather at the edges' sources, the edge weighting, the scatter to the destinations, the graph sizes), so each
  such buffer IS the reference's stage, given that the buffers it reads are. An argument array is never written, so
  at every boundary between host stretches and kernels it still holds what it was launched with.
-/
import proofs.«421342_j91139206021791_3_alg».proof.Proof.KernelRun
import proofs.«421342_j91139206021791_3_alg».proof.Proof.Gen.ReferenceIdeal.Read
import Idealize.ShloMosaic.Lib.StableHlo.Run
import Idealize.ShloMosaic.Lib.Tactic

set_option maxRecDepth 16384

noncomputable section

namespace Cert.KernelIdeal.HostReads

open Idealize.ShloMosaic Idealize.ShloMosaic.TcCoe Idealize.ShloMosaic.Tactic Idealize.SL.Sem Idealize.ShloMosaic.StableHlo
open Cert.KernelIdeal Cert.KernelIdeal.Gen Cert.ReferenceIdeal.Read

variable {F : FTy → Type} [FloatOps F]
variable (m : (ℓ : Loc nD τ sig) → Buf (Elt F) ℓ) (ρ : Dev nD → PrngReg) (c : Dev nD)

/-- The contents at the first kernel's entry, as the five host stretches before it applied to the launch memory. -/
local macro "entry0" : tactic =>
  `(tactic| show StableHlo.after hostOps0_4 (StableHlo.after hostOps0_3 (StableHlo.after hostOps0_2
      (StableHlo.after hostOps0_1 (StableHlo.after hostOps0 (W0 _ _ _))))) _ = _)

/-! ## At the first kernel's entry -/

theorem arg1_5 : W5 m ρ c (Proc.devRef .tc main_arg1) = m ((c : Thread nD τ).loc main_arg1) := by entry0; after_results <;> rfl
theorem arg2_5 : W5 m ρ c (Proc.devRef .tc main_arg2) = m ((c : Thread nD τ).loc main_arg2) := by entry0; after_results <;> rfl
theorem arg4_5 : W5 m ρ c (Proc.devRef .tc main_arg4) = m ((c : Thread nD τ).loc main_arg4) := by entry0; after_results <;> rfl
theorem arg8_5 : W5 m ρ c (Proc.devRef .tc main_arg8) = m ((c : Thread nD τ).loc main_arg8) := by entry0; after_results <;> rfl
theorem arg9_5 : W5 m ρ c (Proc.devRef .tc main_arg9) = m ((c : Thread nD τ).loc main_arg9) := by entry0; after_results <;> rfl
theorem arg10_5 : W5 m ρ c (Proc.devRef .tc main_arg10) = m ((c : Thread nD τ).loc main_arg10) := by entry0; after_results <;> rfl
theorem arg11_5 : W5 m ρ c (Proc.devRef .tc main_arg11) = m ((c : Thread nD τ).loc main_arg11) := by entry0; after_results <;> rfl

/-- The edge weight, in the kernel program's words: the exponential of minus the squared distance times the
    word of 1/64. -/
theorem edgeWeight_5 : W5 m ρ c (Proc.devRef .tc main_v4)
    = (Host.exp (mulf (Host.negf (mulf (m ((c : Thread nD τ).loc main_arg3)) (m ((c : Thread nD τ).loc main_arg3))))
        (broadcastInDim S1200000 ![] bcast_S_S1200000 (constant S_ .f32 0x3C800000#32))) : FVec F S1200000 .f32) := by
  entry0; after_results <;> rfl

/-- The source normalisation is the reference's. -/
theorem srcNorm_5 : W5 m ρ c (Proc.devRef .tc main_v14) = val_main_v25 (F := F) (m ((c : Thread nD τ).loc main_arg1)) := by
  entry0; after_results <;> rfl

/-- The destination normalisation is the reference's. -/
theorem dstNorm_5 : W5 m ρ c (Proc.devRef .tc main_v17) = val_main_v28 (F := F) (m ((c : Thread nD τ).loc main_arg2)) := by
  entry0; after_results <;> rfl

/-- The reference computes both normalisations a second time, for its second layer: the same stages. -/
theorem srcNorm_again (x1 : IVec Cert.ReferenceIdeal.S1200000 32) : val_main_v62 (F := F) x1 = val_main_v25 (F := F) x1 := rfl
theorem dstNorm_again (x2 : IVec Cert.ReferenceIdeal.S1200000 32) : val_main_v65 (F := F) x2 = val_main_v28 (F := F) x2 := rfl

/-- The labels as a column. -/
theorem labels_5 : W5 m ρ c (Proc.devRef .tc main_v22)
    = (shapeCast S100000x1 (m ((c : Thread nD τ).loc main_arg0)) shapeCasts_S100000_S100000x1 : IVec S100000x1 32) := by
  entry0; after_results <;> rfl

set_option maxHeartbeats 1000000 in
/-- The folded table: the atom table times the embedding matrix, plus the bias row on every row. -/
theorem table_5 : W5 m ρ c (Proc.devRef .tc main_v21)
    = (addf (Host.dotGeneral dot_S95x200_S200x64_S95x64_1_0_0_1_n_n none (m ((c : Thread nD τ).loc main_arg5)) (m ((c : Thread nD τ).loc main_arg6)))
        (broadcastInDim S95x64 ![0, 1] bcast_S1x64_S95x64_0_1 (broadcastInDim S1x64 ![1] bcast_S64_S1x64_1 (m ((c : Thread nD τ).loc main_arg7)))) : FVec F S95x64 .f32) := by
  entry0; after_results_simp <;> rfl

/-- The source normalisation as a column. -/
theorem scale_5 : W5 m ρ c (Proc.devRef .tc main_v23)
    = (shapeCast S100000x1 (val_main_v25 (F := F) (m ((c : Thread nD τ).loc main_arg1))) shapeCasts_S100000_S100000x1 : FVec F S100000x1 .f32) := by
  entry0; after_results <;> rfl

end Cert.KernelIdeal.HostReads

end
-- ==== Proof.HostCarry.lean ====
/-
  A buffer no kernel and no later host stretch writes holds, at every later boundary of the program, what it held at
  the first kernel's entry: one lemma per buffer and boundary, each the step across one kernel (which writes only its
  own output array) or through one host stretch (which writes only its own results) after the lemma before it.
-/
import proofs.«421342_j91139206021791_3_alg».proof.Proof.HostReads

set_option maxRecDepth 16384

noncomputable section

namespace Cert.KernelIdeal.HostReads

open Idealize.ShloMosaic Idealize.ShloMosaic.TcCoe Idealize.ShloMosaic.Tactic Idealize.SL.Sem Idealize.ShloMosaic.StableHlo
open Cert.KernelIdeal Cert.KernelIdeal.Gen Cert.ReferenceIdeal.Read

variable {F : FTy → Type} [FloatOps F]
variable (m : (ℓ : Loc nD τ sig) → Buf (Elt F) ℓ) (ρ : Dev nD → PrngReg) (c : Dev nD)

theorem edgeWeight_5' : W5 m ρ c (Proc.devRef .tc main_v4) = W5 m ρ c (Proc.devRef .tc main_v4) := rfl
theorem arg1_6 : W6 m ρ c (Proc.devRef .tc main_arg1) = m ((c : Thread nD τ).loc main_arg1) := (W6_of_ne m ρ c main_arg1 (by decide)).trans (arg1_5 m ρ c)
theorem arg1_7 : W7 m ρ c (Proc.devRef .tc main_arg1) = m ((c : Thread nD τ).loc main_arg1) := (by show StableHlo.after hostOps1 (W6 m ρ c) (Proc.devRef .tc main_arg1) = _; after_results <;> rfl : W7 m ρ c (Proc.devRef .tc main_arg1) = W6 m ρ c (Proc.devRef .tc main_arg1)).trans (arg1_6 m ρ c)
theorem arg1_8 : W8 m ρ c (Proc.devRef .tc main_arg1) = m ((c : Thread nD τ).loc main_arg1) := (W8_of_ne m ρ c main_arg1 (by decide)).trans (arg1_7 m ρ c)
theorem arg2_6 : W6 m ρ c (Proc.devRef .tc main_arg2) = m ((c : Thread nD τ).loc main_arg2) := (W6_of_ne m ρ c main_arg2 (by decide)).trans (arg2_5 m ρ c)
theorem arg2_7 : W7 m ρ c (Proc.devRef .tc main_arg2) = m ((c : Thread nD τ).loc main_arg2) := (by show StableHlo.after hostOps1 (W6 m ρ c) (Proc.devRef .tc main_arg2) = _; after_results <;> rfl : W7 m ρ c (Proc.devRef .tc main_arg2) = W6 m ρ c (Proc.devRef .tc main_arg2)).trans (arg2_6 m ρ c)
theorem arg2_8 : W8 m ρ c (Proc.devRef .tc main_arg2) = m ((c : Thread nD τ).loc main_arg2) := (W8_of_ne m ρ c main_arg2 (by decide)).trans (arg2_7 m ρ c)
theorem arg4_6 : W6 m ρ c (Proc.devRef .tc main_arg4) = m ((c : Thread nD τ).loc main_arg4) := (W6_of_ne m ρ c main_arg4 (by decide)).trans (arg4_5 m ρ c)
theorem arg4_7 : W7 m ρ c (Proc.devRef .tc main_arg4) = m ((c : Thread nD τ).loc main_arg4) := (by show StableHlo.after hostOps1 (W6 m ρ c) (Proc.devRef .tc main_arg4) = _; after_results <;> rfl : W7 m ρ c (Proc.devRef .tc main_arg4) = W6 m ρ c (Proc.devRef .tc main_arg4)).trans (arg4_6 m ρ c)
theorem arg4_8 : W8 m ρ c (Proc.devRef .tc main_arg4) = m ((c : Thread nD τ).loc main_arg4) := (W8_of_ne m ρ c main_arg4 (by decide)).trans (arg4_7 m ρ c)
theorem arg4_9 : W9 m ρ c (Proc.devRef .tc main_arg4) = m ((c : Thread nD τ).loc main_arg4) := (by show StableHlo.after hostOps2 (W8 m ρ c) (Proc.devRef .tc main_arg4) = _; after_results <;> rfl : W9 m ρ c (Proc.devRef .tc main_arg4) = W8 m ρ c (Proc.devRef .tc main_arg4)).trans (arg4_8 m ρ c)
theorem arg4_10 : W10 m ρ c (Proc.devRef .tc main_arg4) = m ((c : Thread nD τ).loc main_arg4) := (W10_of_ne m ρ c main_arg4 (by decide)).trans (arg4_9 m ρ c)
theorem arg4_11 : W11 m ρ c (Proc.devRef .tc main_arg4) = m ((c : Thread nD τ).loc main_arg4) := (by show StableHlo.after hostOps3 (W10 m ρ c) (Proc.devRef .tc main_arg4) = _; after_results <;> rfl : W11 m ρ c (Proc.devRef .tc main_arg4) = W10 m ρ c (Proc.devRef .tc main_arg4)).trans (arg4_10 m ρ c)
theorem arg4_12 : W12 m ρ c (Proc.devRef .tc main_arg4) = m ((c : Thread nD τ).loc main_arg4) := (W12_of_ne m ρ c main_arg4 (by decide)).trans (arg4_11 m ρ c)
theorem arg8_6 : W6 m ρ c (Proc.devRef .tc main_arg8) = m ((c : Thread nD τ).loc main_arg8) := (W6_of_ne m ρ c main_arg8 (by decide)).trans (arg8_5 m ρ c)
theorem arg8_7 : W7 m ρ c (Proc.devRef .tc main_arg8) = m ((c : Thread nD τ).loc main_arg8) := (by show StableHlo.after hostOps1 (W6 m ρ c) (Proc.devRef .tc main_arg8) = _; after_results <;> rfl : W7 m ρ c (Proc.devRef .tc main_arg8) = W6 m ρ c (Proc.devRef .tc main_arg8)).trans (arg8_6 m ρ c)
theorem arg9_6 : W6 m ρ c (Proc.devRef .tc main_arg9) = m ((c : Thread nD τ).loc main_arg9) := (W6_of_ne m ρ c main_arg9 (by decide)).trans (arg9_5 m ρ c)
theorem arg10_6 : W6 m ρ c (Proc.devRef .tc main_arg10) = m ((c : Thread nD τ).loc main_arg10) := (W6_of_ne m ρ c main_arg10 (by decide)).trans (arg10_5 m ρ c)
theorem arg10_7 : W7 m ρ c (Proc.devRef .tc main_arg10) = m ((c : Thread nD τ).loc main_arg10) := (by show StableHlo.after hostOps1 (W6 m ρ c) (Proc.devRef .tc main_arg10) = _; after_results <;> rfl : W7 m ρ c (Proc.devRef .tc main_arg10) = W6 m ρ c (Proc.devRef .tc main_arg10)).trans (arg10_6 m ρ c)
theorem arg10_8 : W8 m ρ c (Proc.devRef .tc main_arg10) = m ((c : Thread nD τ).loc main_arg10) := (W8_of_ne m ρ c main_arg10 (by decide)).trans (arg10_7 m ρ c)
theorem arg10_9 : W9 m ρ c (Proc.devRef .tc main_arg10) = m ((c : Thread nD τ).loc main_arg10) := (by show StableHlo.after hostOps2 (W8 m ρ c) (Proc.devRef .tc main_arg10) = _; after_results <;> rfl : W9 m ρ c (Proc.devRef .tc main_arg10) = W8 m ρ c (Proc.devRef .tc main_arg10)).trans (arg10_8 m ρ c)
theorem arg11_6 : W6 m ρ c (Proc.devRef .tc main_arg11) = m ((c : Thread nD τ).loc main_arg11) := (W6_of_ne m ρ c main_arg11 (by decide)).trans (arg11_5 m ρ c)
theorem arg11_7 : W7 m ρ c (Proc.devRef .tc main_arg11) = m ((c : Thread nD τ).loc main_arg11) := (by show StableHlo.after hostOps1 (W6 m ρ c) (Proc.devRef .tc main_arg11) = _; after_results <;> rfl : W7 m ρ c (Proc.devRef .tc main_arg11) = W6 m ρ c (Proc.devRef .tc main_arg11)).trans (arg11_6 m ρ c)
theorem arg11_8 : W8 m ρ c (Proc.devRef .tc main_arg11) = m ((c : Thread nD τ).loc main_arg11) := (W8_of_ne m ρ c main_arg11 (by decide)).trans (arg11_7 m ρ c)
theorem srcNorm_6 : W6 m ρ c (Proc.devRef .tc main_v14) = val_main_v25 (F := F) (m ((c : Thread nD τ).loc main_arg1)) := (W6_of_ne m ρ c main_v14 (by decide)).trans (srcNorm_5 m ρ c)
theorem dstNorm_6 : W6 m ρ c (Proc.devRef .tc main_v17) = val_main_v28 (F := F) (m ((c : Thread nD τ).loc main_arg2)) := (W6_of_ne m ρ c main_v17 (by decide)).trans (dstNorm_5 m ρ c)
theorem dstNorm_7 : W7 m ρ c (Proc.devRef .tc main_v17) = val_main_v28 (F := F) (m ((c : Thread nD τ).loc main_arg2)) := (by show StableHlo.after hostOps1 (W6 m ρ c) (Proc.devRef .tc main_v17) = _; after_results <;> rfl : W7 m ρ c (Proc.devRef .tc main_v17) = W6 m ρ c (Proc.devRef .tc main_v17)).trans (dstNorm_6 m ρ c)
theorem dstNorm_8 : W8 m ρ c (Proc.devRef .tc main_v17) = val_main_v28 (F := F) (m ((c : Thread nD τ).loc main_arg2)) := (W8_of_ne m ρ c main_v17 (by decide)).trans (dstNorm_7 m ρ c)
theorem edgeWeight_6 : W6 m ρ c (Proc.devRef .tc main_v4) = W5 m ρ c (Proc.devRef .tc main_v4) := (W6_of_ne m ρ c main_v4 (by decide)).trans (edgeWeight_5' m ρ c)
theorem edgeWeight_7 : W7 m ρ c (Proc.devRef .tc main_v4) = W5 m ρ c (Proc.devRef .tc main_v4) := (by show StableHlo.after hostOps1 (W6 m ρ c) (Proc.devRef .tc main_v4) = _; after_results <;> rfl : W7 m ρ c (Proc.devRef .tc main_v4) = W6 m ρ c (Proc.devRef .tc main_v4)).trans (edgeWeight_6 m ρ c)
theorem edgeWeight_8 : W8 m ρ c (Proc.devRef .tc main_v4) = W5 m ρ c (Proc.devRef .tc main_v4) := (W8_of_ne m ρ c main_v4 (by decide)).trans (edgeWeight_7 m ρ c)
theorem rows2_11 : W11 m ρ c (Proc.devRef .tc main_v57) = W10 m ρ c (Proc.devRef .tc main_v57) := (by show StableHlo.after hostOps3 (W10 m ρ c) (Proc.devRef .tc main_v57) = _; after_results <;> rfl : W11 m ρ c (Proc.devRef .tc main_v57) = W10 m ρ c (Proc.devRef .tc main_v57))

end Cert.KernelIdeal.HostReads

end
-- ==== Proof.HostStages.lean ====
/-
  One host stretch of the kernel program at a time, at any float instance and from any buffer contents `V`: what
  the stretch leaves in the buffer the next kernel (or the result) reads, given what `V` holds in the buffers the
  stretch reads. The two aggregations — gather the rows at the edges' sources (negative indices wrapped), weight
  each edge, scatter-add to the destinations — and the final division by the clamped graph sizes are, operation by
  operation, the reference's own stages; a reshape of a vector to a column or a row is read as such.
-/
import proofs.«421342_j91139206021791_3_alg».proof.Proof.KernelRun
import proofs.«421342_j91139206021791_3_alg».proof.Proof.Gen.ReferenceIdeal.Read
import Idealize.ShloMosaic.Lib.StableHlo.Run
import Idealize.ShloMosaic.Lib.Tactic

set_option maxRecDepth 16384

noncomputable section

namespace Cert.KernelIdeal.HostStages

open Idealize.ShloMosaic Idealize.ShloMosaic.TcCoe Idealize.ShloMosaic.Tactic Idealize.SL.Sem Idealize.ShloMosaic.StableHlo
open Cert.KernelIdeal Cert.KernelIdeal.Gen Cert.ReferenceIdeal.Read

variable {F : FTy → Type} [FloatOps F]

set_option maxHeartbeats 2000000 in
/-- The first aggregation is the reference's, when the embedded rows, the edge ends and the edge weight are. -/
theorem agg1_eq (V : Valuation τ sig (Elt F)) (x0 : IVec Cert.ReferenceIdeal.S100000 32) (x1 x2 : IVec Cert.ReferenceIdeal.S1200000 32) (x3 : FVec F Cert.ReferenceIdeal.S1200000 .f32) (x5 : FVec F Cert.ReferenceIdeal.S95x200 .f32) (x6 : FVec F Cert.ReferenceIdeal.S200x64 .f32) (x7 : FVec F Cert.ReferenceIdeal.S64 .f32)
    (h24 : V (Proc.devRef .tc main_v24) = val_main_v31 (F := F) x0 x1 x5 x6 x7)
    (h1 : V (Proc.devRef .tc main_arg1) = x1) (h2 : V (Proc.devRef .tc main_arg2) = x2)
    (h4 : V (Proc.devRef .tc main_v4) = val_main_v4 (F := F) x3) :
    StableHlo.after hostOps1 V (Proc.devRef .tc main_v37) = val_main_v44 (F := F) x0 x1 x2 x3 x5 x6 x7 := by
  after_results_simp
  rw [h24, h1, h2, h4]
  rfl

set_option maxHeartbeats 2000000 in
/-- The second aggregation is the reference's, when the first layer's rows, the edge ends and the edge weight are. -/
theorem agg2_eq (V : Valuation τ sig (Elt F)) (x0 : IVec Cert.ReferenceIdeal.S100000 32) (x1 x2 : IVec Cert.ReferenceIdeal.S1200000 32) (x3 : FVec F Cert.ReferenceIdeal.S1200000 .f32) (x5 : FVec F Cert.ReferenceIdeal.S95x200 .f32) (x6 : FVec F Cert.ReferenceIdeal.S200x64 .f32) (x7 : FVec F Cert.ReferenceIdeal.S64 .f32)
    (x8 : FVec F Cert.ReferenceIdeal.S64x64 .f32) (x9 : FVec F Cert.ReferenceIdeal.S64 .f32)
    (h41 : V (Proc.devRef .tc main_v41) = val_main_v68 (F := F) x0 x1 x2 x3 x5 x6 x7 x8 x9)
    (h1 : V (Proc.devRef .tc main_arg1) = x1) (h2 : V (Proc.devRef .tc main_arg2) = x2)
    (h4 : V (Proc.devRef .tc main_v4) = val_main_v4 (F := F) x3) :
    StableHlo.after hostOps2 V (Proc.devRef .tc main_v54) = val_main_v81 (F := F) x0 x1 x2 x3 x5 x6 x7 x8 x9 := by
  after_results_simp
  rw [h41, h1, h2, h4]
  rfl

/-- The first dense kernel's three reshaped inputs, and its weight matrix carried over. -/
theorem dst1_read (V : Valuation τ sig (Elt F)) : StableHlo.after hostOps1 V (Proc.devRef .tc main_v38)
    = (shapeCast S100000x1 (V (Proc.devRef .tc main_v17) : FVec F S100000 .f32) shapeCasts_S100000_S100000x1 : FVec F S100000x1 .f32) := by
  after_results <;> rfl
theorem bias1_read (V : Valuation τ sig (Elt F)) : StableHlo.after hostOps1 V (Proc.devRef .tc main_v39)
    = (shapeCast S1x64 (V (Proc.devRef .tc main_arg9) : FVec F S64 .f32) shapeCasts_S64_S1x64 : FVec F S1x64 .f32) := by
  after_results <;> rfl
theorem src1_read (V : Valuation τ sig (Elt F)) : StableHlo.after hostOps1 V (Proc.devRef .tc main_v40)
    = (shapeCast S100000x1 (V (Proc.devRef .tc main_v14) : FVec F S100000 .f32) shapeCasts_S100000_S100000x1 : FVec F S100000x1 .f32) := by
  after_results <;> rfl

/-- The second dense kernel's two reshaped inputs. -/
theorem dst2_read (V : Valuation τ sig (Elt F)) : StableHlo.after hostOps2 V (Proc.devRef .tc main_v55)
    = (shapeCast S100000x1 (V (Proc.devRef .tc main_v17) : FVec F S100000 .f32) shapeCasts_S100000_S100000x1 : FVec F S100000x1 .f32) := by
  after_results <;> rfl
theorem bias2_read (V : Valuation τ sig (Elt F)) : StableHlo.after hostOps2 V (Proc.devRef .tc main_v56)
    = (shapeCast S1x64 (V (Proc.devRef .tc main_arg11) : FVec F S64 .f32) shapeCasts_S64_S1x64 : FVec F S1x64 .f32) := by
  after_results <;> rfl

/-- The pooling kernel's graph ids as a column. -/
theorem ids_read (V : Valuation τ sig (Elt F)) : StableHlo.after hostOps3 V (Proc.devRef .tc main_v58)
    = (shapeCast S100000x1 (V (Proc.devRef .tc main_arg4) : IVec S100000 32) shapeCasts_S100000_S100000x1 : IVec S100000x1 32) := by
  after_results <;> rfl

set_option maxHeartbeats 2000000 in
/-- The result: the pooled sums divided by the clamped graph sizes is the reference's, when the pooled sums and the
    graph ids are. -/
theorem result_eq (V : Valuation τ sig (Elt F)) (x0 : IVec Cert.ReferenceIdeal.S100000 32) (x1 x2 : IVec Cert.ReferenceIdeal.S1200000 32) (x3 : FVec F Cert.ReferenceIdeal.S1200000 .f32) (x4 : IVec Cert.ReferenceIdeal.S100000 32) (x5 : FVec F Cert.ReferenceIdeal.S95x200 .f32) (x6 : FVec F Cert.ReferenceIdeal.S200x64 .f32) (x7 : FVec F Cert.ReferenceIdeal.S64 .f32)
    (x8 : FVec F Cert.ReferenceIdeal.S64x64 .f32) (x9 : FVec F Cert.ReferenceIdeal.S64 .f32)
    (x10 : FVec F Cert.ReferenceIdeal.S64x64 .f32) (x11 : FVec F Cert.ReferenceIdeal.S64 .f32)
    (h59 : V (Proc.devRef .tc main_v59) = val_main_v91 (F := F) x0 x1 x2 x3 x4 x5 x6 x7 x8 x9 x10 x11)
    (h4 : V (Proc.devRef .tc main_arg4) = x4) :
    StableHlo.after hostOps4_2 (StableHlo.after hostOps4_1 (StableHlo.after hostOps4 V)) (Proc.devRef .tc main_v67)
      = val_main_v99 (F := F) x0 x1 x2 x3 x4 x5 x6 x7 x8 x9 x10 x11 := by
  after_results_simp
  rw [h59, h4]
  rfl

end Cert.KernelIdeal.HostStages

end
-- ==== Proof.Chain.lean ====
/-
  The kernel program's result buffer, over the extended reals, is the reference's result term of the same arguments,
  when every node label is a category word.

  Boundary by boundary: the embedding kernel's array is the reference's scaled node features (the one-hot
  combination selects the label's table row); the first aggregation of it is the reference's; the first dense
  kernel's array is the reference's first layer, clamped and rescaled; the second aggregation and the second dense
  kernel likewise; the pooling kernel's array is the reference's segment sums; and the last host stretch divides by
  the clamped graph sizes as the reference does. The edge weight differs only in spelling: the kernel program
  multiplies by the word of 1/64 where the reference divides by the word of 64.
-/
import proofs.«421342_j91139206021791_3_alg».proof.Proof.KernelRun
import proofs.«421342_j91139206021791_3_alg».proof.Proof.Gen.ReferenceIdeal.Read
import proofs.«421342_j91139206021791_3_alg».proof.Proof.Spec
import proofs.«421342_j91139206021791_3_alg».proof.Proof.Laws
import proofs.«421342_j91139206021791_3_alg».proof.Proof.EmbedRegion
import proofs.«421342_j91139206021791_3_alg».proof.Proof.DenseReluRegion
import proofs.«421342_j91139206021791_3_alg».proof.Proof.DenseRegion
import proofs.«421342_j91139206021791_3_alg».proof.Proof.PoolRegion
import proofs.«421342_j91139206021791_3_alg».proof.Proof.Bridges
import proofs.«421342_j91139206021791_3_alg».proof.Proof.HostReads
import proofs.«421342_j91139206021791_3_alg».proof.Proof.HostCarry
import proofs.«421342_j91139206021791_3_alg».proof.Proof.HostStages
import Idealize.ShloMosaic.Lib.Pipeline.Value
import Idealize.ShloMosaic.Lib.ValueIdx
import Idealize.ShloMosaic.PureOps.Ideal.Laws

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen Cert.ReferenceIdeal.Read Cert.GcnSpec Cert.KernelIdeal.HostReads

/-! ## Reshapes and the folded table, read at an element -/

/-- A vector over the nodes reshaped to a column, at row `n`. -/
theorem col_apply {α : Type} (x : S100000.Idx → α) (n : Fin 100000) :
    shapeCast S100000x1 x shapeCasts_S100000_S100000x1 (ix2 n (0 : Fin 1)) = x (ix1 n) :=
  shapeCast_apply x _ (ix2 n (0 : Fin 1)) (ix1 n) (by
    rw [Shape.rowMajor_val_one, Shape.rowMajor_val_two]; show n.val = n.val * 1 + 0; omega)

/-- A vector over the features reshaped to a row, at column `f`. -/
theorem row_apply {α : Type} (x : S64.Idx → α) (f : Fin 64) :
    shapeCast S1x64 x shapeCasts_S64_S1x64 (ix2 (0 : Fin 1) f) = x (ix1 f) :=
  shapeCast_apply x _ (ix2 (0 : Fin 1) f) (ix1 f) (by
    rw [Shape.rowMajor_val_one, Shape.rowMajor_val_two]; show f.val = 0 * 64 + f.val; omega)

theorem lhs_table_0 (i : S95x64.Idx) (q : dot_S95x200_S200x64_S95x64_1_0_0_1_n_n.contr.Idx) :
    (dot_S95x200_S200x64_S95x64_1_0_0_1_n_n.lhsIdx i q 0).val = (i 0).val := by
  unfold DotDims.lhsIdx
  rw [dif_neg (show ¬(0 : Fin S95x200.rank) ∈ dot_S95x200_S200x64_S95x64_1_0_0_1_n_n.lhsBatch by decide),
    dif_pos (show (0 : Fin S95x200.rank) ∈ dot_S95x200_S200x64_S95x64_1_0_0_1_n_n.lhsNonContracting by decide)]
  rfl
theorem lhs_table_1 (i : S95x64.Idx) (q : dot_S95x200_S200x64_S95x64_1_0_0_1_n_n.contr.Idx) :
    (dot_S95x200_S200x64_S95x64_1_0_0_1_n_n.lhsIdx i q 1).val = (q ⟨0, by decide⟩).val :=
  dot_S95x200_S200x64_S95x64_1_0_0_1_n_n.lhsIdx_val_of_single rfl i q
theorem rhs_table_0 (i : S95x64.Idx) (q : dot_S95x200_S200x64_S95x64_1_0_0_1_n_n.contr.Idx) :
    (dot_S95x200_S200x64_S95x64_1_0_0_1_n_n.rhsIdx i q 0).val = (q ⟨0, by decide⟩).val :=
  dot_S95x200_S200x64_S95x64_1_0_0_1_n_n.rhsIdx_val_of_single rfl i q
theorem rhs_table_1 (i : S95x64.Idx) (q : dot_S95x200_S200x64_S95x64_1_0_0_1_n_n.contr.Idx) :
    (dot_S95x200_S200x64_S95x64_1_0_0_1_n_n.rhsIdx i q 1).val = (i 1).val := by
  unfold DotDims.rhsIdx
  rw [dif_neg (show ¬(1 : Fin S200x64.rank) ∈ dot_S95x200_S200x64_S95x64_1_0_0_1_n_n.rhsBatch by decide),
    dif_pos (show (1 : Fin S200x64.rank) ∈ dot_S95x200_S200x64_S95x64_1_0_0_1_n_n.rhsNonContracting by decide)]
  rfl

/-- The folded table at (a, f): row `a` of the atom table times column `f` of the embedding matrix, plus the
    bias's entry `f`. -/
theorem table_apply (x5 : FVec Ideal S95x200 .f32) (x6 : FVec Ideal S200x64 .f32) (x7 : FVec Ideal S64 .f32) (a : Fin 95) (f : Fin 64) :
    (addf (Host.dotGeneral dot_S95x200_S200x64_S95x64_1_0_0_1_n_n none x5 x6)
        (broadcastInDim S95x64 ![0, 1] bcast_S1x64_S95x64_0_1 (broadcastInDim S1x64 ![1] bcast_S64_S1x64_1 x7)) : FVec Ideal S95x64 .f32) (ix2 a f)
      = (∑ k : Fin 200, x5 (ix2 a k) * x6 (ix2 k f)) + x7 (ix1 f) := by
  show Host.dotGeneral dot_S95x200_S200x64_S95x64_1_0_0_1_n_n none x5 x6 (ix2 a f)
      + broadcastInDim S95x64 ![0, 1] bcast_S1x64_S95x64_0_1 (broadcastInDim S1x64 ![1] bcast_S64_S1x64_1 x7) (ix2 a f) = _
  have hb : broadcastInDim S95x64 ![0, 1] bcast_S1x64_S95x64_0_1 (broadcastInDim S1x64 ![1] bcast_S64_S1x64_1 x7) (ix2 a f) = x7 (ix1 f) := by
    rw [broadcastInDim_apply _ bcast_S1x64_S95x64_0_1 _ (ix2 a f) (ix2 (0 : Fin 1) f) (fun d => match d with
      | ⟨0, _⟩ => by show 0 = if (1 : Nat) = 1 then 0 else a.val; rw [if_pos rfl]
      | ⟨1, _⟩ => by show f.val = if (64 : Nat) = 1 then 0 else f.val; rw [if_neg (by decide)])]
    exact broadcastInDim_apply _ bcast_S64_S1x64_1 x7 (ix2 (0 : Fin 1) f) (ix1 f) (fun d => match d with
      | ⟨0, _⟩ => by show f.val = if (64 : Nat) = 1 then 0 else f.val; rw [if_neg (by decide)])
  rw [hb]
  congr 1
  simp only [Host.dotGeneral]
  rw [Ideal.dotGeneral_apply, ← Equiv.sum_comp (contrEquiv1 dot_S95x200_S200x64_S95x64_1_0_0_1_n_n 200 rfl rfl).symm]
  refine Finset.sum_congr rfl fun k _ => ?_
  have hk := contrEquiv1_symm_val dot_S95x200_S200x64_S95x64_1_0_0_1_n_n 200 rfl rfl k
  have el : dot_S95x200_S200x64_S95x64_1_0_0_1_n_n.lhsIdx (ix2 a f) ((contrEquiv1 dot_S95x200_S200x64_S95x64_1_0_0_1_n_n 200 rfl rfl).symm k) = ix2 a k :=
    funext fun d => Fin.ext (by
      match d with
      | ⟨0, _⟩ => exact lhs_table_0 _ _
      | ⟨1, _⟩ => exact (lhs_table_1 _ _).trans hk)
  have er : dot_S95x200_S200x64_S95x64_1_0_0_1_n_n.rhsIdx (ix2 a f) ((contrEquiv1 dot_S95x200_S200x64_S95x64_1_0_0_1_n_n 200 rfl rfl).symm k) = ix2 k f :=
    funext fun d => Fin.ext (by
      match d with
      | ⟨0, _⟩ => exact (rhs_table_0 _ _).trans hk
      | ⟨1, _⟩ => exact rhs_table_1 _ _)
  rw [el, er]

/-- The edge weight: multiplying by the word of 1/64 is the reference's dividing by the word of 64. -/
theorem edgeWeight_eq (x3 : FVec Ideal S1200000 .f32) :
    (Host.exp (mulf (Host.negf (mulf x3 x3)) (broadcastInDim S1200000 ![] bcast_S_S1200000 (constant S_ .f32 0x3C800000#32))) : FVec Ideal S1200000 .f32)
      = val_main_v4 (F := Ideal) x3 := by
  unfold val_main_v4
  refine congrArg (Host.exp (F := Ideal)) (funext fun i => ?_)
  rw [val_main_v3_apply, val_main_v2_apply, val_main_cst_apply]
  exact mul_inv64 _

/-! ## Boundary by boundary -/

variable (m : (ℓ : Loc nD τ sig) → Buf (Elt Ideal) ℓ) (ρ : Dev nD → PrngReg) (c : Dev nD)

/-- The edge weight at the first kernel's entry is the reference's. -/
theorem edgeWeight_ref : W5 m ρ c (Proc.devRef .tc main_v4) = val_main_v4 (F := Ideal) (m ((c : Thread nD τ).loc main_arg3)) :=
  (edgeWeight_5 m ρ c).trans (edgeWeight_eq _)

variable (hlab : ∀ n : Fin 100000, ∃ a : Fin 95, (m ((c : Thread nD τ).loc main_arg0)) (ix1 n) = BitVec.ofNat 32 a.val)
include hlab

/-- After the embedding kernel: the reference's scaled node features. -/
theorem embedded_6 : W6 m ρ c (Proc.devRef .tc main_v24) = val_main_v31 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  refine ((W6_arr m ρ c 3).trans (Cert.KernelIdeal.EmbedRegion.final (V5 m ρ) c)).trans ?_
  have el : Cert.KernelIdeal.EmbedRegion.labels (V5 m ρ) c = shapeCast S100000x1 (m ((c : Thread nD τ).loc main_arg0)) shapeCasts_S100000_S100000x1 := labels_5 m ρ c
  have et : Cert.KernelIdeal.EmbedRegion.table (V5 m ρ) c = _ := table_5 m ρ c
  have es : Cert.KernelIdeal.EmbedRegion.scale (V5 m ρ) c = _ := scale_5 m ρ c
  exact Cert.ReferenceIdeal.Bridges.embedded_eq _ _ _ _ _ hlab _ (fun n => (congrFun el _).trans (col_apply _ n))
    _ (fun a f => (congrFun et _).trans (table_apply _ _ _ a f)) _ (fun n => (congrFun es _).trans (col_apply _ n))

/-- After the first aggregation: the reference's. -/
theorem agg1_7 : W7 m ρ c (Proc.devRef .tc main_v37) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) :=
  Cert.KernelIdeal.HostStages.agg1_eq (W6 m ρ c) _ _ _ _ _ _ _ (embedded_6 m ρ c hlab) (arg1_6 m ρ c) (arg2_6 m ρ c)
    ((edgeWeight_6 m ρ c).trans (edgeWeight_ref m ρ c))

/-- After the first dense kernel: the reference's first layer, clamped and rescaled. -/
theorem layer1_8 : W8 m ρ c (Proc.devRef .tc main_v41) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W8_arr m ρ c 5).trans (Cert.KernelIdeal.DenseReluRegion.final (V7 m ρ) c)).trans ?_
  have er : Cert.KernelIdeal.DenseReluRegion.rows (V7 m ρ) c = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := agg1_7 m ρ c hlab
  have ew : Cert.KernelIdeal.DenseReluRegion.weight (V7 m ρ) c = (m ((c : Thread nD τ).loc main_arg8)) := arg8_7 m ρ c
  have ed : Cert.KernelIdeal.DenseReluRegion.dstScale (V7 m ρ) c = _ := Cert.KernelIdeal.HostStages.dst1_read (W6 m ρ c)
  have eb : Cert.KernelIdeal.DenseReluRegion.bias (V7 m ρ) c = _ := Cert.KernelIdeal.HostStages.bias1_read (W6 m ρ c)
  have es : Cert.KernelIdeal.DenseReluRegion.srcScale (V7 m ρ) c = _ := Cert.KernelIdeal.HostStages.src1_read (W6 m ρ c)
  rw [er, ew]
  exact Cert.ReferenceIdeal.Bridges.denseRelu_eq _ _ _ _ _ _ _ _ _
    _ (fun n => ((congrFun ed _).trans (col_apply _ n)).trans (congrFun (dstNorm_6 m ρ c) _))
    _ (fun f => ((congrFun eb _).trans (row_apply _ f)).trans (congrFun (arg9_6 m ρ c) _))
    _ (fun n => (((congrFun es _).trans (col_apply _ n)).trans (congrFun (srcNorm_6 m ρ c) _)).trans (congrFun (srcNorm_again _).symm _))

/-- After the second aggregation: the reference's. -/
theorem agg2_9 : W9 m ρ c (Proc.devRef .tc main_v54) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) :=
  Cert.KernelIdeal.HostStages.agg2_eq (W8 m ρ c) _ _ _ _ _ _ _ _ _ (layer1_8 m ρ c hlab) (arg1_8 m ρ c) (arg2_8 m ρ c)
    ((edgeWeight_8 m ρ c).trans (edgeWeight_ref m ρ c))

/-- After the second dense kernel: the reference's second layer. -/
theorem layer2_10 : W10 m ρ c (Proc.devRef .tc main_v57) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W10_arr m ρ c 4).trans (Cert.KernelIdeal.DenseRegion.final (V9 m ρ) c)).trans ?_
  have er : Cert.KernelIdeal.DenseRegion.rows (V9 m ρ) c = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := agg2_9 m ρ c hlab
  have ew : Cert.KernelIdeal.DenseRegion.weight (V9 m ρ) c = (m ((c : Thread nD τ).loc main_arg10)) := arg10_9 m ρ c
  have ed : Cert.KernelIdeal.DenseRegion.dstScale (V9 m ρ) c = _ := Cert.KernelIdeal.HostStages.dst2_read (W8 m ρ c)
  have eb : Cert.KernelIdeal.DenseRegion.bias (V9 m ρ) c = _ := Cert.KernelIdeal.HostStages.bias2_read (W8 m ρ c)
  rw [er, ew]
  exact Cert.ReferenceIdeal.Bridges.dense_eq _ _ _ _ _ _ _ _ _ _ _
    _ (fun n => (((congrFun ed _).trans (col_apply _ n)).trans (congrFun (dstNorm_8 m ρ c) _)).trans (congrFun (dstNorm_again _).symm _))
    _ (fun f => ((congrFun eb _).trans (row_apply _ f)).trans (congrFun (arg11_8 m ρ c) _))

/-- After the pooling kernel: the reference's segment sums. -/
theorem pooled_12 : W12 m ρ c (Proc.devRef .tc main_v59) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W12_arr m ρ c 2).trans (Cert.KernelIdeal.PoolRegion.final (V11 m ρ) c)).trans ?_
  have er : Cert.KernelIdeal.PoolRegion.nodeRows (V11 m ρ) c = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
    (rows2_11 m ρ c).trans (layer2_10 m ρ c hlab)
  have eg : Cert.KernelIdeal.PoolRegion.graphIds (V11 m ρ) c = _ := Cert.KernelIdeal.HostStages.ids_read (W10 m ρ c)
  rw [er]
  exact Cert.ReferenceIdeal.Bridges.pooled_eq _ _ _ _ _ _ _ _ _ _ _ _
    _ (fun n => ((congrFun eg _).trans (col_apply _ n)).trans (congrFun (arg4_10 m ρ c) _))

/-- The result buffer after the last host stretch: the reference's result term. -/
theorem result_15 : W15 m ρ c (Proc.devRef .tc main_v67) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  Cert.KernelIdeal.HostStages.result_eq (W12 m ρ c) _ _ _ _ _ _ _ _ _ _ _ _ (pooled_12 m ρ c hlab) (arg4_12 m ρ c)

end Cert.KernelIdeal.Chain

end
-- ==== Proof.PreLabels.lean ====
/-
  What the precondition says of the node labels. Its last conjunct is the and-reduction, over all nodes, of
  `0 ≤ label ∧ label < 95` (signed comparisons of 32-bit words), so where the precondition holds every node's label
  is the word of one of the 95 categories.
-/
import proofs.«421342_j91139206021791_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

open Idealize.ShloMosaic Idealize.ShloMosaic.TcCoe Idealize.SL.Sem Idealize.ShloMosaic.ValueIdx

namespace Cert.Pre_finite_inputs.Labels

open Cert.Pre_finite_inputs

/-- A 32-bit word whose signed value lies in [0, 95) is the word of its unsigned value, and that value is below 95:
    a word of nonnegative signed value has its top bit clear, so it reads the same signed and unsigned. -/
theorem word_of_range {x : BitVec 32} (h0 : 0 ≤ x.toInt) (h1 : x.toInt < 95) :
    ∃ a : Fin 95, x = BitVec.ofNat 32 a.val := by
  have hx := x.isLt
  have hlt : x.toNat < 95 := by
    have hc := BitVec.toInt_eq_toNat_cond x
    split at hc <;> omega
  exact ⟨⟨x.toNat, hlt⟩, BitVec.eq_of_toNat_eq (by rw [BitVec.toNat_ofNat]; exact (Nat.mod_eq_of_lt x.isLt).symm)⟩

/-- Under the precondition every node's label is a category word. -/
theorem label_is_category (a0 : IVec S100000 32) (a1 a2 : IVec S1200000 32) (a3 : FVec Ideal S1200000 .f32) (a4 : IVec S100000 32)
    (a5 : FVec Ideal S95x200 .f32) (a6 : FVec Ideal S200x64 .f32) (a7 : FVec Ideal S64 .f32) (a8 : FVec Ideal S64x64 .f32)
    (a9 : FVec Ideal S64 .f32) (a10 : FVec Ideal S64x64 .f32) (a11 : FVec Ideal S64 .f32)
    (h : fn (F := Ideal) a0 a1 a2 a3 a4 a5 a6 a7 a8 a9 a10 a11 = fun _ => 1#1) (n : Fin 100000) :
    ∃ a : Fin 95, a0 (ix1 n) = BitVec.ofNat 32 a.val := by
  -- the precondition's result is a rank-0 array: it has one index
  haveI : Subsingleton S_.Idx := ⟨fun a b => funext fun d => d.elim0⟩
  -- the precondition read at that index, its chain of operations in view
  have h0 := congrFun h ix0
  dsimp only [fn, fn_part1, fn_part2] at h0
  -- the outermost conjunction: its second half is the and-reduction over the nodes
  have hR := (IntOp.andi_eq_one.1 h0).2
  -- an and-reduction over every axis that came out 1 met a 1 at every node, so at node n
  have hb := Host.reduce_andi_all _ _ _ _ ix0 hR (ix1 n)
  -- there the bit is the conjunction of the two signed comparisons of the label
  obtain ⟨hge, hlt⟩ := IntOp.andi_eq_one.1 hb
  have hge' := IntOp.cmpi_sge.1 hge
  have hlt' := IntOp.cmpi_slt.1 hlt
  -- the comparands are scalars broadcast along the nodes: the words 0 and 95, of signed values 0 and 95
  rw [StableHlo.Predicate.bcast_scalar _ (by decide)] at hge'
  rw [StableHlo.Predicate.bcast_scalar _ (by decide)] at hlt'
  have z : (0#32 : BitVec 32).toInt = 0 := by decide
  have c : (95#32 : BitVec 32).toInt = 95 := by decide
  change (0#32 : BitVec 32).toInt ≤ _ at hge'
  change _ < (95#32 : BitVec 32).toInt at hlt'
  rw [z] at hge'
  rw [c] at hlt'
  -- 0 ≤ label < 95 as signed values: the label is the word of a category
  exact word_of_range hge' hlt'

end Cert.Pre_finite_inputs.Labels

end
-- ==== Proof.lean ====
/-
  The certificate of a two-layer graph convolution network with average pooling, written as four kernels around
  host gathers and scatter-adds, against its plain reference: over the extended reals, from memories that agree on
  the twelve argument arrays, both programs end with the same [512, 64] result, whenever the float inputs are finite
  and every node label is one of the 95 categories the atom table has rows for.

  The three frame claims are the generated frame certificates (the kernel program's at both instances; the
  reference's is its generated run with the result dropped). The idealization rewrote nothing, so `preserves` is
  trivial. For the algebraic claim both runs end at ONE term, the reference's result stage of the arguments: the
  reference by its generated run; the kernel program because its run ends with the result buffer at what the last
  host stretch leaves (the frame's launch theorem, with the result named), and that is the reference's term,
  boundary by boundary — where the programs differ: the embedding by a one-hot product over a table folded with the
  embedding matrix instead of a gather then a product (equal where the label is a category: the one place the label
  range is used), the dense layers in blocks of five thousand rows, the pooling by a one-hot product accumulated over
  twenty blocks instead of a scatter-add, the edge weight by a multiplication by 1/64 instead of a division by 64.
-/
import proofs.«421342_j91139206021791_3_alg».proof.Defs
import proofs.«421342_j91139206021791_3_alg».proof.Proof.Gen.Kernel
import proofs.«421342_j91139206021791_3_alg».proof.Proof.Gen.Kernel.Frame
import proofs.«421342_j91139206021791_3_alg».proof.Proof.Gen.KernelIdeal
import proofs.«421342_j91139206021791_3_alg».proof.Proof.Gen.KernelIdeal.Frame
import proofs.«421342_j91139206021791_3_alg».proof.Proof.Gen.ReferenceIdeal
import proofs.«421342_j91139206021791_3_alg».proof.Proof.Gen.ReferenceIdeal.Run
import proofs.«421342_j91139206021791_3_alg».proof.Proof.Gen.ReferenceIdeal.Read
import proofs.«421342_j91139206021791_3_alg».proof.Proof.Gen.Pre_finite_inputs
import proofs.«421342_j91139206021791_3_alg».proof.Proof.KernelRun
import proofs.«421342_j91139206021791_3_alg».proof.Proof.Chain
import proofs.«421342_j91139206021791_3_alg».proof.Proof.PreLabels
import Idealize.ShloMosaic.Adequacy
import Idealize.ShloMosaic.Init

noncomputable section

namespace Cert.Proof

open Idealize.ShloMosaic Idealize.SL.Sem Idealize.ShloMosaic.ValueIdx

/-- The kernel program runs and keeps its arguments, at the bit-exact instance. -/
theorem frame_kernel : Cert.frame_Kernel := fun m ρ _ => Cert.Kernel.Gen.frame m ρ

/-- The same at the ideal instance. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the reference's result term of the kernel program's arguments. -/
theorem algebraic : Cert.algebraic_KernelIdeal_ReferenceIdeal := by
  intro m ρ m' ρ' hpre hagree
  have hlab : ∀ (c : Dev Cert.KernelIdeal.nD) (n : Fin 100000),
      ∃ a : Fin 95, (m ((c.tc : Thread Cert.KernelIdeal.nD Cert.KernelIdeal.τ).loc Cert.KernelIdeal.main_arg0)) (ix1 n) = BitVec.ofNat 32 a.val :=
    fun c n => Cert.Pre_finite_inputs.Labels.label_is_category _ _ _ _ _ _ _ _ _ _ _ _ (hpre c) n
  refine ⟨fun c => Cert.ReferenceIdeal.Read.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result_15 m ρ c (hlab c)), (h c).2⟩) (Cert.KernelIdeal.Gen.run_result m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11⟩ := hagree c
    rw [Cert.ReferenceIdeal.Read.val_main_v99_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
